-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S2048x4096 .f32) (main_arg1 : FVec F S2048x4096 .f32) (main_arg2 : IVec S2048x4096 1) (main_arg3 : FVec F S4096x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S2048x4096 : Shape := ⟨2, ![2048, 4096]⟩
abbrev S4096x4096 : Shape := ⟨2, ![4096, 4096]⟩
abbrev S1x1 : Shape := ⟨2, ![1, 1]⟩
abbrev S256x512 : Shape := ⟨2, ![256, 512]⟩
abbrev S4096x512 : Shape := ⟨2, ![4096, 512]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 14
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .i1⟩
  | .hbm, ⟨3, _⟩ => ⟨S4096x4096, .f32⟩
  | .hbm, ⟨4, _⟩ => ⟨S4096x4096, .bf16⟩
  | .hbm, ⟨5, _⟩ => ⟨S2048x4096, .i32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S4096x512, .bf16⟩
  | .local _ .vmem, ⟨5, _⟩ => ⟨S4096x512, .bf16⟩
  | .local _ .vmem, ⟨6, _⟩ => ⟨S256x4096, .i32⟩
  | .local _ .vmem, ⟨7, _⟩ => ⟨S256x4096, .i32⟩
  | .local _ .vmem, ⟨8, _⟩ => ⟨S1x1, .f32⟩
  | .local _ .vmem, ⟨9, _⟩ => ⟨S1x1, .f32⟩
  | .local _ .vmem, ⟨10, _⟩ => ⟨S256x4096, .f32⟩
  | .local _ .vmem, ⟨11, _⟩ => ⟨S256x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 2 → Nat :=
  let c0_7 : Index := 0#32
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  ![0, v14.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  bitsLt_bf16_f32 : FTy.bits .bf16 < FTy.bits .f32
  natLt_1_32 : 1 < 32
  inb_S1x1_S1x1_0_0 : ∀ a, (![0, 0] : Fin 2 → Nat) a + S1x1.size a ≤ S1x1.size a
  h_S1x1 : 0 < S1x1.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  shapeCasts_S1x1_S_ : S1x1.ShapeCasts S_
  dot_S256x512_S4096x512_S256x4096_1_1_0_0_n_n_wf : DotDims.WF S256x512 S4096x512 S256x4096 [1] [1] [0] [0] [] []
  hrank0 : 0 < grid0.rank
  k0_mult1_dvd : ∀ i : grid0.Coords, 512 ∣ (k0_mult1 i).toNat
  k0_off1_inb : ∀ i : grid0.Coords, ∀ a, (k0_off1 i) a + S256x512.size a ≤ S256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x4096.size a
  hwx0_0 : ∀ i : grid0.Coords, EltTy.bits .f32 = 32 ∨ (Rect.block (s := S2048x4096) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S2048x4096.size a
  hwx0_1 : ∀ i : grid0.Coords, EltTy.bits .f32 = 32 ∨ (Rect.block (s := S2048x4096) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x4096.size a
  hwx0_2 : ∀ i : grid0.Coords, EltTy.bits .bf16 = 32 ∨ (Rect.block (s := S4096x4096) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S2048x4096.size a
  hwx0_3 : ∀ i : grid0.Coords, EltTy.bits .i32 = 32 ∨ (Rect.block (s := S2048x4096) S256x4096.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond3 i == 1#1) | 5 => fun i => !(k0_cond1 i == 1#1) && !(k0_cond3 i == 1#1) | ⟨_ + 6, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .i1⟩
  | .hbm, ⟨3, _⟩ => ⟨S4096x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S_, .f32⟩
  | .hbm, ⟨11, _⟩ => ⟨S2048x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  reducesTo_S2048x4096_S_d0_1 : S2048x4096.ReducesTo [0, 1] S_
  h_S_ : 0 < S_.numel
  dot_S2048x4096_S4096x4096_S2048x4096_1_1_0_0_n_n_wf : DotDims.WF S2048x4096 S4096x4096 S2048x4096 [1] [1] [0] [0] [] []

variable [Facts₀]

def dot_S2048x4096_S4096x4096_S2048x4096_1_1_0_0_n_n : DotDims S2048x4096 S4096x4096 S2048x4096 where
  lhsContracting := [1]
  rhsContracting := [1]
  lhsNonContracting := [0]
  rhsNonContracting := [0]
  lhsBatch := []
  rhsBatch := []
  wf := dot_S2048x4096_S4096x4096_S2048x4096_1_1_0_0_n_n_wf

class Facts : Prop extends Facts₀ where

variable [Facts]
-- ==== Proof.K.Shared.lean ====
/-
  What the four runs of the kernel body share: the three branch conditions of the body as propositions
  over the grid coordinates, with their closed forms over the linear point t = 8·i + k (the row-tile i
  and the column-slab k of the 8 × 8 grid): the outputs are reset at t = 0 only, the matmul accumulator
  at k = 0, and the masked reduction runs at k = 7; the staging memrefs of a point; and the two scratch
  buffers as whole memrefs.
-/
import proofs.«155107_j85701777424698_1_alg».proof.Proof.Gen.Kernel.Frame
import proofs.«155107_j85701777424698_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The outputs' reset: the first branch of the body, taken at the grid's first point only. -/
abbrev resetOut (i : grid0.Coords) : Prop := k0_cond1 i = 1#1
theorem resetOut_iff : ∀ t : Fin cfg0.N, resetOut (grid0.coords t) ↔ t.val = 0 :=
  (by decide +kernel : ∀ t : Fin grid0.N, resetOut (grid0.coords t) ↔ t.val = 0)

/-- The accumulator's reset: the second branch, taken at the first column slab of every row tile. -/
abbrev resetAcc (i : grid0.Coords) : Prop :=
  (Scalar.cmpi .ne (Scalar.extui (Scalar.cmpi .eq (BitVec.ofNat 32 (i 1).val) 0#32)) 0#32) = 1#1
theorem resetAcc_iff : ∀ t : Fin cfg0.N, resetAcc (grid0.coords t) ↔ t.val % 8 = 0 :=
  (by decide +kernel : ∀ t : Fin grid0.N, resetAcc (grid0.coords t) ↔ t.val % 8 = 0)

/-- The masked reduction: the third branch, taken at the last column slab of every row tile. -/
abbrev lastSlab (i : grid0.Coords) : Prop := k0_cond3 i = 1#1
theorem lastSlab_iff : ∀ t : Fin cfg0.N, lastSlab (grid0.coords t) ↔ t.val % 8 = 7 :=
  (by decide +kernel : ∀ t : Fin grid0.N, lastSlab (grid0.coords t) ↔ t.val % 8 = 7)

/-- The column offset of slab k in the full-width scratch: 512·k. -/
theorem off1_eq : ∀ t : Fin cfg0.N, k0_off1 (grid0.coords t) = ![0, 512 * (t.val % 8)] :=
  (by decide +kernel : ∀ t : Fin grid0.N, k0_off1 (grid0.coords t) = ![0, 512 * (t.val % 8)])

/-- The input windows are live at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
/-- The two output windows are live exactly where the body stores into them: at the first point and at k = 7. -/
theorem idle_4 : ∀ t : Fin cfg0.N, cfg0.idle 4 (grid0.coords t) = (!decide (t.val = 0) && !decide (t.val % 8 = 7)) := by decide +kernel
theorem idle_5 : ∀ t : Fin cfg0.N, cfg0.idle 5 (grid0.coords t) = (!decide (t.val = 0) && !decide (t.val % 8 = 7)) := by decide +kernel

/-- The staging memrefs the pipeline passes at point t, and their wholeness. -/
abbrev mY (t : Fin cfg0.N) : Memref sig .tc .vmem S256x512 .f32 := win0_1.stage (cfg0.slots t 1)
abbrev mX (t : Fin cfg0.N) : Memref sig .tc .vmem S256x512 .f32 := win0_0.stage (cfg0.slots t 0)
abbrev mA (t : Fin cfg0.N) : Memref sig .tc .vmem S4096x512 .bf16 := win0_2.stage (cfg0.slots t 2)
abbrev mM (t : Fin cfg0.N) : Memref sig .tc .vmem S256x4096 .i32 := win0_3.stage (cfg0.slots t 3)
abbrev mT (t : Fin cfg0.N) : Memref sig .tc .vmem S1x1 .f32 := win0_4.stage (cfg0.slots t 4)
abbrev mC (t : Fin cfg0.N) : Memref sig .tc .vmem S1x1 .f32 := win0_5.stage (cfg0.slots t 5)
abbrev hX (t : Fin cfg0.N) : (mX t).IsWhole := hstage0_0 ((cfg0.slots t 0).cast nbuf0_0)
abbrev hY (t : Fin cfg0.N) : (mY t).IsWhole := hstage0_1 ((cfg0.slots t 1).cast nbuf0_1)
abbrev hA (t : Fin cfg0.N) : (mA t).IsWhole := hstage0_2 ((cfg0.slots t 2).cast nbuf0_2)
abbrev hM (t : Fin cfg0.N) : (mM t).IsWhole := hstage0_3 ((cfg0.slots t 3).cast nbuf0_3)
abbrev hT (t : Fin cfg0.N) : (mT t).IsWhole := hstage0_4 ((cfg0.slots t 4).cast nbuf0_4)
abbrev hC (t : Fin cfg0.N) : (mC t).IsWhole := hstage0_5 ((cfg0.slots t 5).cast nbuf0_5)
/-- The matmul accumulator and the full-width squares, the kernel's two scratch buffers. -/
abbrev mAcc : Memref sig .tc .vmem S256x4096 .f32 := Memref.whole cc0_scratch0
abbrev mSq : Memref sig .tc .vmem S256x4096 .f32 := Memref.whole cc0_scratch1
abbrev hAcc : (mAcc).IsWhole := Memref.isWhole_whole _
abbrev hSq : (mSq).IsWhole := Memref.isWhole_whole _

/-- What the launch hands the region besides the windows: both scratch buffers at some contents, and the
    generator register at some state. -/
theorem PhiA_eq (c : Dev nD) :
    (Pipeline.ΦA spec0 c : sProp 𝕄)
      = iprop(iprop((∃ d, owns (c : Thread nD τ) mAcc fullShare d) ∗ (∃ d, owns (c : Thread nD τ) mSq fullShare d)) ∗ (∃ r, prngReg c r)) := by
  unfold Pipeline.ΦA; rw [scopedRest0_eq]; simp only [mAcc, mSq, owns_whole]; try rfl

/-- The full-width squares after the body's slab store: the slab's 512 columns at the squared differences of
    the point's blocks, every other column as it was. -/
abbrev sqAfter (i : grid0.Coords) (s9 : Vec F S256x4096 .f32) (y x : Vec F S256x512 .f32) : Vec F S256x4096 .f32 :=
  (Rect.unit (s := S256x4096) (k0_off1 i) S256x512.size (k0_off1_inb i)).overlay s9 (k0_pay5 y x)

theorem hz : (![0, 0] : Fin 2 → Nat) = fun _ => 0 := funext fun a => by fin_cases a <;> rfl

end Cert.Kernel.Body

end
-- ==== Proof.K.Spec.lean ====
/-
  What the kernel's buffers hold after each grid point, as functions of the argument arrays — the contents
  the proof data names. The grid is 8 row tiles × 8 column slabs, t = 8·i + k; a point reads the 256 × 512
  blocks (i, k) of y and ŷ, the 4096 × 512 column slab k of the neighbour matrix, and the 256 × 4096 row
  tile i of the mask.

  * accAt t  — the matmul accumulator: reset at k = 0, then the slab's product added at every point.
  * sqTile t — the squared differences of row tile i over all 4096 columns, slab k' of it from point 8·i + k'.
  * SqOK t d — the squares scratch d is right on the slabs 0 … k the tile has stored so far.
  * totAt t, cntAt t — the two outputs: zero at t = 0, the tile's masked total / mask count added at k = 7,
    and kept at every other point.
  All generic in the float instance: they are compositions of the body's own payload terms.
-/
import proofs.«155107_j85701777424698_1_alg».proof.Proof.K.Shared
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem N_eq : cfg0.N = 64 := N_0

/-- The point's blocks, at their literal types. -/
abbrev xB (c : Dev nD) (t : Fin cfg0.N) : Vec F S256x512 .f32 := iblk m c 0 t
abbrev yB (c : Dev nD) (t : Fin cfg0.N) : Vec F S256x512 .f32 := iblk m c 1 t
abbrev aB (c : Dev nD) (t : Fin cfg0.N) : Vec F S4096x512 .bf16 := iblk m c 2 t
abbrev kB (c : Dev nD) (t : Fin cfg0.N) : Vec F S256x4096 .i32 := iblk m c 3 t

/-- The matmul accumulator after point n: at k = 0 the zero block plus the slab's product, else what the
    point before left plus the slab's product. -/
def accAt (c : Dev nD) : (n : ℕ) → n < cfg0.N → Vec F S256x4096 .f32
  | 0, h => k0_pay6 (yB m c ⟨0, h⟩) (xB m c ⟨0, h⟩) (aB m c ⟨0, h⟩) (k0_pay3 (F := F))
  | n + 1, h => k0_pay6 (yB m c ⟨n + 1, h⟩) (xB m c ⟨n + 1, h⟩) (aB m c ⟨n + 1, h⟩)
      (if (n + 1) % 8 = 0 then (k0_pay3 (F := F)) else accAt c n (Nat.lt_of_succ_lt h))

theorem accAt_reset (c : Dev nD) (t : Fin cfg0.N) (h : t.val % 8 = 0) :
    accAt m c t.val t.isLt = k0_pay6 (yB m c t) (xB m c t) (aB m c t) (k0_pay3 (F := F)) := by
  obtain ⟨n, hn⟩ := t
  cases n with
  | zero => rfl
  | succ n => simp only [accAt]; rw [if_pos h]

theorem accAt_step (c : Dev nD) (t : Fin cfg0.N) (h : ¬t.val % 8 = 0) :
    accAt m c t.val t.isLt = k0_pay6 (yB m c t) (xB m c t) (aB m c t)
      (accAt m c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

theorem tile_lt (t : Fin cfg0.N) (j : S256x4096.Idx) : 8 * (t.val / 8) + (j 1).val / 512 < cfg0.N := by
  have h1 : (j 1).val < 4096 := idx2_lt1 j
  have h2 : t.val < 64 := lt_of_lt_of_eq t.isLt N_eq
  exact lt_of_lt_of_eq (by omega : 8 * (t.val / 8) + (j 1).val / 512 < 64) N_eq.symm

/-- The squared differences of the point's row tile over all 4096 columns: column q of slab q / 512 is
    that slab's block of squares at column q mod 512. -/
def sqTile (c : Dev nD) (t : Fin cfg0.N) : Vec F S256x4096 .f32 := fun j =>
  k0_pay5 (yB m c ⟨8 * (t.val / 8) + (j 1).val / 512, tile_lt t j⟩) (xB m c ⟨8 * (t.val / 8) + (j 1).val / 512, tile_lt t j⟩)
    (ix2 (⟨(j 0).val, idx2_lt0 j⟩ : Fin 256) (⟨(j 1).val % 512, Nat.mod_lt _ (by norm_num)⟩ : Fin 512))

theorem sqTile_congr (c : Dev nD) (t t' : Fin cfg0.N) (h : t.val / 8 = t'.val / 8) : sqTile m c t = sqTile m c t' := by
  funext j; unfold sqTile; simp only [h]

/-- The squares scratch is right on the slabs the tile has stored up to point t. -/
def SqOK (c : Dev nD) (t : Fin cfg0.N) (d : Vec F S256x4096 .f32) : Prop :=
  ∀ j : S256x4096.Idx, (j 1).val < 512 * (t.val % 8 + 1) → d j = sqTile m c t j

/-- The masked total after point n: zero at the first point, the tile's masked sum added at k = 7, kept elsewhere. -/
def totAt (c : Dev nD) : (n : ℕ) → n < cfg0.N → Vec F S1x1 .f32
  | 0, _ => (k0_pay1 (F := F))
  | n + 1, h =>
    if (n + 1) % 8 = 7 then
      k0_pay8 (sqTile m c ⟨n + 1, h⟩) (accAt m c (n + 1) h) (kB m c ⟨n + 1, h⟩) (totAt c n (Nat.lt_of_succ_lt h))
    else totAt c n (Nat.lt_of_succ_lt h)

/-- The mask count after point n. -/
def cntAt (c : Dev nD) : (n : ℕ) → n < cfg0.N → Vec F S1x1 .f32
  | 0, _ => (k0_pay2 (F := F))
  | n + 1, h =>
    if (n + 1) % 8 = 7 then k0_pay9 (kB m c ⟨n + 1, h⟩) (cntAt c n (Nat.lt_of_succ_lt h))
    else cntAt c n (Nat.lt_of_succ_lt h)

theorem totAt_zero (c : Dev nD) (t : Fin cfg0.N) (h : t.val = 0) : totAt m c t.val t.isLt = (k0_pay1 (F := F)) := by
  obtain ⟨n, hn⟩ := t; subst h; rfl
theorem cntAt_zero (c : Dev nD) (t : Fin cfg0.N) (h : t.val = 0) : cntAt m c t.val t.isLt = (k0_pay2 (F := F)) := by
  obtain ⟨n, hn⟩ := t; subst h; rfl

theorem totAt_last (c : Dev nD) (t : Fin cfg0.N) (h : t.val % 8 = 7) :
    totAt m c t.val t.isLt = k0_pay8 (sqTile m c t) (accAt m c t.val t.isLt) (kB m c t)
      (totAt m c (t.val - 1) (Nat.lt_of_le_of_lt (Nat.sub_le _ _) t.isLt)) := by
  obtain ⟨n, hn⟩ := t
  cases n with
  | zero => exact absurd h (by norm_num)
  | succ n => simp only [totAt]; rw [if_pos h]; rfl
theorem cntAt_last (c : Dev nD) (t : Fin cfg0.N) (h : t.val % 8 = 7) :
    cntAt m c t.val t.isLt = k0_pay9 (kB m c t) (cntAt m c (t.val - 1) (Nat.lt_of_le_of_lt (Nat.sub_le _ _) t.isLt)) := by
  obtain ⟨n, hn⟩ := t
  cases n with
  | zero => exact absurd h (by norm_num)
  | succ n => simp only [cntAt]; rw [if_pos h]; rfl

theorem totAt_keep (c : Dev nD) (t : Fin cfg0.N) (h0 : t.val ≠ 0) (h : ¬t.val % 8 = 7) :
    totAt m c t.val t.isLt = totAt m c (t.val - 1) (Nat.lt_of_le_of_lt (Nat.sub_le _ _) t.isLt) := by
  obtain ⟨n, hn⟩ := t
  cases n with
  | zero => exact absurd rfl h0
  | succ n => simp only [totAt]; rw [if_neg h]; rfl
theorem cntAt_keep (c : Dev nD) (t : Fin cfg0.N) (h0 : t.val ≠ 0) (h : ¬t.val % 8 = 7) :
    cntAt m c t.val t.isLt = cntAt m c (t.val - 1) (Nat.lt_of_le_of_lt (Nat.sub_le _ _) t.isLt) := by
  obtain ⟨n, hn⟩ := t
  cases n with
  | zero => exact absurd rfl h0
  | succ n => simp only [cntAt]; rw [if_neg h]; rfl

end Cert.Kernel.Body

end
-- ==== Proof.LibStoreRead.lean ====
/-
  What ONE unmasked store leaves in a buffer, read back through the buffer's view.

  * A store through the unit-stride rectangle at offset zero of the view's full extents replaces the
    contents by the payload: the read-back is the payload, whatever the buffer held (read_writes_full).
  * The same when earlier stores precede it (read_writes_full_cons).
  * A store through any rectangle r replaces the contents on r and keeps them elsewhere: the read-back
    is the earlier read-back with its part on r replaced by the payload (read_writes_one), hence the
    payload at an index of r (read_writes_one_emb) and the earlier contents off r (read_writes_one_off).
-/
import Idealize.ShloMosaic.Lib.Writes
import Idealize.ShloMosaic.Lib.Memref
import Idealize.ShloMosaic.Lib.Pipeline.FrameBody
import Idealize.ShloMosaic.Lib.Pipeline.Value

namespace Idealize.ShloMosaic.StoreRead

open Idealize.ShloMosaic

variable {Val : EltTy → Type} {sig : RefSig} {κ : Kind} {sp : Space} {S : Shape} {e : EltTy}

/-- A store through rectangle r, read back at an index of r: the payload there. -/
theorem read_writes_one_emb (v : View sig κ sp S e) (f : v.ty.Contents Val) (r : Rect S) (w : r.shape.Idx → Val e)
    (x : r.shape.Idx) : v.read Val (v.writes Val f [⟨r, w⟩]) (r.emb x) = w x :=
  View.read_writes_cons_emb v f r w [] x

/-- A store through rectangle r, read back at an index outside r: what the buffer held. -/
theorem read_writes_one_off (v : View sig κ sp S e) (f : v.ty.Contents Val) (r : Rect S) (w : r.shape.Idx → Val e)
    {y : S.Idx} (hy : y ∉ r.set) : v.read Val (v.writes Val f [⟨r, w⟩]) y = v.read Val f y :=
  View.read_writes_apply_of_forall_not_mem v f y [⟨r, w⟩] (fun p hp => by
    rw [List.mem_singleton] at hp; subst hp; exact hy)

/-- A store through rectangle r: the earlier read-back with its part on r replaced by the payload. -/
theorem read_writes_one (v : View sig κ sp S e) (f : v.ty.Contents Val) (r : Rect S) (w : r.shape.Idx → Val e) :
    v.read Val (v.writes Val f [⟨r, w⟩]) = r.overlay (v.read Val f) w := by
  funext y
  by_cases hy : y ∈ r.set
  · obtain ⟨x, rfl⟩ := r.exists_idx_of_mem hy
    rw [show r.idx x = r.emb x from rfl, read_writes_one_emb, Rect.overlay_emb]
  · rw [read_writes_one_off v f r w hy, Rect.overlay_of_not_mem _ _ _ hy]

/-- A store through the whole extent at offset zero, made LAST: the read-back is its payload, whatever the
    earlier stores and the buffer's contents were. -/
theorem read_writes_full_cons [∀ e, Nonempty (Val e)] (v : View sig κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A store through the whole extent at offset zero: the read-back is the payload. -/
theorem read_writes_full [∀ e, Nonempty (Val e)] (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

end Idealize.ShloMosaic.StoreRead
-- ==== Proof.K.Data.lean ====
/-
  The proof data of the kernel's pipeline, with every buffer named: after the body at point t the inputs'
  staging buffers hold their blocks, the two outputs' the running masked total and mask count (totAt, cntAt);
  between points the invariant holds the matmul accumulator at accAt and the squares scratch at contents that
  are right on the slabs stored so far (SqOK). The outputs' windows are idle wherever the body does not store
  into them (every point but t = 0 and k = 7): there the buffer is found as the last live point left it,
  which is the running value itself, since that value does not change at an idle point.
-/
import proofs.«155107_j85701777424698_1_alg».proof.Proof.K.Spec
import proofs.«155107_j85701777424698_1_alg».proof.Proof.LibStoreRead

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The squares scratch, slab by slab -/

theorem slab_idx (t : Fin cfg0.N) (j : S256x4096.Idx) (hlo : 512 * (t.val % 8) ≤ (j 1).val) (hhi : (j 1).val < 512 * (t.val % 8 + 1)) :
    j = (Rect.unit (s := S256x4096) (k0_off1 (grid0.coords t)) S256x512.size (k0_off1_inb (grid0.coords t))).emb
      (ix2 (⟨(j 0).val, idx2_lt0 j⟩ : Fin 256) (⟨(j 1).val - 512 * (t.val % 8), by omega⟩ : Fin 512)) := by
  have h0 : k0_off1 (grid0.coords t) 0 = 0 := by rw [off1_eq t]; rfl
  have h1 : k0_off1 (grid0.coords t) 1 = 512 * (t.val % 8) := by rw [off1_eq t]; rfl
  funext a; apply Fin.ext
  rw [Rect.emb_apply]
  match a with
  | ⟨0, _⟩ => show (j 0).val = k0_off1 (grid0.coords t) 0 + 1 * (j 0).val; omega
  | ⟨1, _⟩ => show (j 1).val = k0_off1 (grid0.coords t) 1 + 1 * ((j 1).val - 512 * (t.val % 8)); omega

theorem not_in_slab (t : Fin cfg0.N) (j : S256x4096.Idx) (h : (j 1).val < 512 * (t.val % 8)) :
    j ∉ (Rect.unit (s := S256x4096) (k0_off1 (grid0.coords t)) S256x512.size (k0_off1_inb (grid0.coords t))).set := by
  rw [Rect.mem_set_unit]
  intro hall
  have h1 : k0_off1 (grid0.coords t) 1 = 512 * (t.val % 8) := by rw [off1_eq t]; rfl
  have h2 : k0_off1 (grid0.coords t) 1 ≤ (j 1).val := (hall 1).1
  omega

/-- Storing the point's slab keeps the scratch right: on the slab by the store, on the earlier slabs of the
    tile by what the point before left (none at k = 0). -/
theorem SqOK_store (c : Dev nD) (t : Fin cfg0.N) (d : Vec F S256x4096 .f32)
    (hprev : t.val % 8 = 0 ∨ SqOK m c ⟨t.val - 1, Nat.lt_of_le_of_lt (Nat.sub_le _ _) t.isLt⟩ d) :
    SqOK m c t (sqAfter (grid0.coords t) d (yB m c t) (xB m c t)) := by
  intro j hj
  have hN : t.val < 64 := lt_of_lt_of_eq t.isLt N_eq
  by_cases hlo : 512 * (t.val % 8) ≤ (j 1).val
  · have e := slab_idx t j hlo hj
    have et : (⟨8 * (t.val / 8) + (j 1).val / 512, tile_lt t j⟩ : Fin cfg0.N) = t := Fin.ext (by show 8 * (t.val / 8) + (j 1).val / 512 = t.val; omega)
    unfold sqAfter sqTile
    rw [et]
    conv_lhs => rw [e]
    rw [Rect.overlay_emb]
    congr 2
    apply Fin.ext
    show (j 1).val - 512 * (t.val % 8) = (j 1).val % 512
    omega
  · have hlt : (j 1).val < 512 * (t.val % 8) := by omega
    have h0 : ¬t.val % 8 = 0 := by omega
    rcases hprev with hp | hp
    · exact absurd hp h0
    · unfold sqAfter
      rw [Rect.overlay_of_not_mem _ _ _ (not_in_slab t j hlt)]
      rw [hp j (by show (j 1).val < 512 * ((t.val - 1) % 8 + 1); omega)]
      exact congrFun (sqTile_congr m c _ t (by show (t.val - 1) / 8 = t.val / 8; omega)) j

/-- At k = 7 the scratch is the tile's squares everywhere. -/
theorem SqOK_full (c : Dev nD) (t : Fin cfg0.N) (h7 : t.val % 8 = 7) (d : Vec F S256x4096 .f32) (hd : SqOK m c t d) :
    d = sqTile m c t :=
  funext fun j => hd j (by have := idx2_lt1 j; omega)

/-! ## The invariant between points -/

/-- Before the first point what the launch hands over (both scratch buffers at anything); after point n the
    accumulator at accAt n, the squares scratch right up to point n, the generator register at some state. -/
def PhiAt (c : Dev nD) : (n : ℕ) → n ≤ cfg0.N → sProp 𝕄
  | 0, _ => Pipeline.ΦA spec0 c
  | n + 1, hn => iprop(iprop(owns (c : Thread nD τ) mAcc fullShare (accAt m c n hn)
      ∗ (∃ d, ⌜SqOK m c ⟨n, hn⟩ d⌝ ∗ owns (c : Thread nD τ) mSq fullShare d)) ∗ (∃ r, prngReg c r))

theorem PhiAt_zero (c : Dev nD) (n : ℕ) (h : n ≤ cfg0.N) (hz : n = 0) : PhiAt m c n h = Pipeline.ΦA spec0 c := by
  subst hz; rfl

theorem PhiAt_succ (c : Dev nD) (n : ℕ) (hn : n < cfg0.N) :
    PhiAt m c (n + 1) hn = iprop(iprop(owns (c : Thread nD τ) mAcc fullShare (accAt m c n hn)
      ∗ (∃ d, ⌜SqOK m c ⟨n, hn⟩ d⌝ ∗ owns (c : Thread nD τ) mSq fullShare d)) ∗ (∃ r, prngReg c r)) := rfl

theorem PhiAt_pos (c : Dev nD) (n : ℕ) (h : n ≤ cfg0.N) (hz : n ≠ 0) :
    PhiAt m c n h = iprop(iprop(owns (c : Thread nD τ) mAcc fullShare (accAt m c (n - 1) (by omega))
      ∗ (∃ d, ⌜SqOK m c ⟨n - 1, by omega⟩ d⌝ ∗ owns (c : Thread nD τ) mSq fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => totAt m c t.val t.isLt
    | ⟨5, _⟩ => cntAt m c t.val t.isLt
  Φ t := PhiAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiAt m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = totAt m c t.val t.isLt := by dsimp only [dats]
theorem after_5 (c : Dev nD) (t : Fin cfg0.N) : (dats m 0 c).after 5 t = cntAt m c t.val t.isLt := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The outputs' staging buffers before the body -/

/-- `before` at a later point of a window not fetched there, with the point before written as n. -/
theorem before_succ (c : Dev nD) (w : Fin cfg0.W) (n : ℕ) (h : n + 1 < cfg0.N) (hf : (cfg0.win w).fetch ⟨n + 1, h⟩ = false)
    (d : (cfg0.win w).block.Idx → Elt F (cfg0.win w).elt) :
    (dats m 0 c).before w ⟨n + 1, h⟩ d
      = if (cfg0.win w).flush ⟨n, Nat.lt_of_succ_lt h⟩ then d else (dats m 0 c).left w ⟨n, Nat.lt_of_succ_lt h⟩ d :=
  (dats m 0 c).before_of_pos w ⟨n + 1, h⟩ (Nat.succ_ne_zero n) hf d

theorem idle_4_false (t : Fin cfg0.N) (h : t.val = 0 ∨ t.val % 8 = 7) : cfg0.idle 4 (cfg0.grid.coords t) = false := by
  rw [show cfg0.grid.coords t = grid0.coords t from rfl, idle_4 t]; rcases h with h | h <;> simp [h]
theorem idle_4_true (t : Fin cfg0.N) (h0 : t.val ≠ 0) (h7 : ¬t.val % 8 = 7) : cfg0.idle 4 (cfg0.grid.coords t) = true := by
  rw [show cfg0.grid.coords t = grid0.coords t from rfl, idle_4 t]; simp [h0, h7]
theorem idle_5_false (t : Fin cfg0.N) (h : t.val = 0 ∨ t.val % 8 = 7) : cfg0.idle 5 (cfg0.grid.coords t) = false := by
  rw [show cfg0.grid.coords t = grid0.coords t from rfl, idle_5 t]; rcases h with h | h <;> simp [h]
theorem idle_5_true (t : Fin cfg0.N) (h0 : t.val ≠ 0) (h7 : ¬t.val % 8 = 7) : cfg0.idle 5 (cfg0.grid.coords t) = true := by
  rw [show cfg0.grid.coords t = grid0.coords t from rfl, idle_5 t]; simp [h0, h7]

theorem noflush_4 (t : Fin cfg0.N) (h : t.val ≠ 63) : (cfg0.win 4).flush t = false := by
  have hN : t.val < 64 := lt_of_lt_of_eq t.isLt N_eq
  rw [Bool.eq_false_iff]; intro hf; have := (flush0_4 t).mp hf; omega
theorem noflush_5 (t : Fin cfg0.N) (h : t.val ≠ 63) : (cfg0.win 5).flush t = false := by
  have hN : t.val < 64 := lt_of_lt_of_eq t.isLt N_eq
  rw [Bool.eq_false_iff]; intro hf; have := (flush0_5 t).mp hf; omega

/-- The total's buffer, at any point after the first, holds the running total of the point before: what the
    last live point left, unchanged through the idle points since. -/
theorem before_4 (c : Dev nD) : ∀ (n : ℕ) (h : n + 1 < cfg0.N) (d : (cfg0.win 4).block.Idx → Elt F (cfg0.win 4).elt),
    (dats m 0 c).before 4 ⟨n + 1, h⟩ d = totAt m c n (Nat.lt_of_succ_lt h)
  | n, h, d => by
    have hN : n + 1 < 64 := lt_of_lt_of_eq h N_eq
    rw [before_succ m c 4 n h ((cfg0.win 4).fetch_out rfl _) d, noflush_4 ⟨n, Nat.lt_of_succ_lt h⟩ (by show n ≠ 63; omega),
      if_neg Bool.false_ne_true]
    unfold Dat.left
    by_cases hl : n = 0 ∨ n % 8 = 7
    · rw [idle_4_false ⟨n, Nat.lt_of_succ_lt h⟩ hl]
      dsimp only
      unfold Dat.kept
      rw [Pipeline.fill_of_clip_none 4 _ (fun _ => rfl) d ((dats m 0 c).after 4 ⟨n, Nat.lt_of_succ_lt h⟩), Window.fill_cut, after_4]
    · have h0 : n ≠ 0 := fun e => hl (.inl e)
      have h7 : ¬n % 8 = 7 := fun e => hl (.inr e)
      rw [idle_4_true ⟨n, Nat.lt_of_succ_lt h⟩ h0 h7]
      dsimp only
      obtain ⟨k, rfl⟩ := Nat.exists_eq_succ_of_ne_zero h0
      rw [before_4 c k (Nat.lt_of_succ_lt h) d]
      exact (totAt_keep m c ⟨k + 1, Nat.lt_of_succ_lt h⟩ (Nat.succ_ne_zero k) h7).symm

/-- The count's buffer likewise. -/
theorem before_5 (c : Dev nD) : ∀ (n : ℕ) (h : n + 1 < cfg0.N) (d : (cfg0.win 5).block.Idx → Elt F (cfg0.win 5).elt),
    (dats m 0 c).before 5 ⟨n + 1, h⟩ d = cntAt m c n (Nat.lt_of_succ_lt h)
  | n, h, d => by
    have hN : n + 1 < 64 := lt_of_lt_of_eq h N_eq
    rw [before_succ m c 5 n h ((cfg0.win 5).fetch_out rfl _) d, noflush_5 ⟨n, Nat.lt_of_succ_lt h⟩ (by show n ≠ 63; omega),
      if_neg Bool.false_ne_true]
    unfold Dat.left
    by_cases hl : n = 0 ∨ n % 8 = 7
    · rw [idle_5_false ⟨n, Nat.lt_of_succ_lt h⟩ hl]
      dsimp only
      unfold Dat.kept
      rw [Pipeline.fill_of_clip_none 5 _ (fun _ => rfl) d ((dats m 0 c).after 5 ⟨n, Nat.lt_of_succ_lt h⟩), Window.fill_cut, after_5]
    · have h0 : n ≠ 0 := fun e => hl (.inl e)
      have h7 : ¬n % 8 = 7 := fun e => hl (.inr e)
      rw [idle_5_true ⟨n, Nat.lt_of_succ_lt h⟩ h0 h7]
      dsimp only
      obtain ⟨k, rfl⟩ := Nat.exists_eq_succ_of_ne_zero h0
      rw [before_5 c k (Nat.lt_of_succ_lt h) d]
      exact (cntAt_keep m c ⟨k + 1, Nat.lt_of_succ_lt h⟩ (Nat.succ_ne_zero k) h7).symm

/-- At the first point an output's buffer holds anything. -/
theorem before_4_zero (c : Dev nD) (t : Fin cfg0.N) (h : t.val = 0) (d) : (dats m 0 c).before 4 t d = d :=
  (dats m 0 c).before_out_reset 4 rfl t (.inl h) d
theorem before_5_zero (c : Dev nD) (t : Fin cfg0.N) (h : t.val = 0) (d) : (dats m 0 c).before 5 t d = d :=
  (dats m 0 c).before_out_reset 5 rfl t (.inl h) d

/-- The same at a point t ≠ 0, stated at t. -/
theorem before_4_pos (c : Dev nD) (t : Fin cfg0.N) (h : t.val ≠ 0) (d) :
    (dats m 0 c).before 4 t d = totAt m c (t.val - 1) (Nat.lt_of_le_of_lt (Nat.sub_le _ _) t.isLt) := by
  obtain ⟨n, hn⟩ := t
  cases n with
  | zero => exact absurd rfl h
  | succ n => exact before_4 m c n hn d
theorem before_5_pos (c : Dev nD) (t : Fin cfg0.N) (h : t.val ≠ 0) (d) :
    (dats m 0 c).before 5 t d = cntAt m c (t.val - 1) (Nat.lt_of_le_of_lt (Nat.sub_le _ _) t.isLt) := by
  obtain ⟨n, hn⟩ := t
  cases n with
  | zero => exact absurd rfl h
  | succ n => exact before_5 m c n hn d

end Cert.Kernel.Body

end
-- ==== Proof.K.RunFirst.lean ====
/-
  The kernel body at the grid's first point (t = 0): both resets are taken, the masked reduction is not.
  The run is stated on whole memrefs at named contents and hands every buffer the body stores into back
  with its stores written, last first; the lists of stores are found by the run itself.
-/
import proofs.«155107_j85701777424698_1_alg».proof.Proof.K.Shared
import Idealize.ShloMosaic.Lib.Tactic
import proofs.«155107_j85701777424698_1_alg».proof.Proof.LibStoreRead

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : resetOut i) (hc1 : resetAcc i) (hc2 : ¬lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32) :
    { L : List (View.Piece (Elt F) S1x1 .f32) × List (View.Piece (Elt F) S1x1 .f32) × List (View.Piece (Elt F) S256x4096 .f32) × List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (arg6.view.loc (c : Thread nD τ) ↦[arg6.view.set]{fullShare} arg6.view.writes (Elt F) (harg6.unread o4) L.1) ∗ (arg7.view.loc (c : Thread nD τ) ↦[arg7.view.set]{fullShare} arg7.view.writes (Elt F) (harg7.unread o5) L.2.1)
                ∗ (arg8.view.loc (c : Thread nD τ) ↦[arg8.view.set]{fullShare} arg8.view.writes (Elt F) (harg8.unread s8) L.2.2.1) ∗ (arg9.view.loc (c : Thread nD τ) ↦[arg9.view.set]{fullShare} arg9.view.writes (Elt F) (harg9.unread s9) L.2.2.2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨(?_, ?_, ?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf8; obtain rfl := harg9.eq_unread hf9
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H8]; · iexact H8
    iexact H9

section
variable (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : resetOut i) (hc1 : resetAcc i) (hc2 : ¬lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32)

/-- The squares scratch after the run: the slab store over what it held. -/
theorem first_sq : arg9.view.read (Elt F) (arg9.view.writes (Elt F) (harg9.unread s9) (runFirst c i arg2 harg2 arg3 harg3 arg4 harg4 arg5 harg5 arg6 harg6 arg7 harg7 arg8 harg8 arg9 harg9 hc0 hc1 hc2 x0 x1 x2 x3 o4 o5 s8 s9).1.2.2.2) = sqAfter i s9 x1 x0 := by
  unfold runFirst; dsimp only; sl_unfold_run_names
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The accumulator after the run. -/
theorem first_acc : arg8.view.read (Elt F) (arg8.view.writes (Elt F) (harg8.unread s8) (runFirst c i arg2 harg2 arg3 harg3 arg4 harg4 arg5 harg5 arg6 harg6 arg7 harg7 arg8 harg8 arg9 harg9 hc0 hc1 hc2 x0 x1 x2 x3 o4 o5 s8 s9).1.2.2.1) = k0_pay6 x1 x0 x2 (k0_pay3 (F := F)) := by
  unfold runFirst; dsimp only; sl_unfold_run_names
  rw [StoreRead.read_writes_full_cons _ _ hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The total's staging buffer after the run: the reset's zero. -/
theorem first_tot : arg6.view.read (Elt F) (arg6.view.writes (Elt F) (harg6.unread o4) (runFirst c i arg2 harg2 arg3 harg3 arg4 harg4 arg5 harg5 arg6 harg6 arg7 harg7 arg8 harg8 arg9 harg9 hc0 hc1 hc2 x0 x1 x2 x3 o4 o5 s8 s9).1.1) = (k0_pay1 (F := F)) := by
  unfold runFirst; dsimp only; sl_unfold_run_names
  rw [StoreRead.read_writes_full_cons _ _ hz]

/-- The count's staging buffer after the run: the reset's zero. -/
theorem first_cnt : arg7.view.read (Elt F) (arg7.view.writes (Elt F) (harg7.unread o5) (runFirst c i arg2 harg2 arg3 harg3 arg4 harg4 arg5 harg5 arg6 harg6 arg7 harg7 arg8 harg8 arg9 harg9 hc0 hc1 hc2 x0 x1 x2 x3 o4 o5 s8 s9).1.2.1) = (k0_pay2 (F := F)) := by
  unfold runFirst; dsimp only; sl_unfold_run_names
  rw [StoreRead.read_writes_full_cons _ _ hz]

include hc0 hc1 hc2 in
/-- THE BODY AT t = 0, on named contents: the inputs are kept; both outputs are reset to zero, the accumulator to
    zero plus the first slab's product, and the squares scratch takes the first slab. -/
theorem tripleFirst (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay1 (F := F)) ∗ owns (c : Thread nD τ) arg7 fullShare (k0_pay2 (F := F))
            ∗ owns (c : Thread nD τ) arg8 fullShare (k0_pay6 x1 x0 x2 (k0_pay3 (F := F))) ∗ owns (c : Thread nD τ) arg9 fullShare (sqAfter i s9 x1 x0)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  iintro ⟨H0, H1, H2, H3, H4, H5, H8, H9, Hk⟩
  iapply (runFirst c i arg2 harg2 arg3 harg3 arg4 harg4 arg5 harg5 arg6 harg6 arg7 harg7 arg8 harg8 arg9 harg9 hc0 hc1 hc2 x0 x1 x2 x3 o4 o5 s8 s9).2 E K
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  iapply Hk
  isplitl [H0]; · iexact H0
  isplitl [H1]; · iexact H1
  isplitl [H2]; · iexact H2
  isplitl [H3]; · iexact H3
  isplitl [H4]
  · unfold owns; iexists _; isplitr; swap; · iexact H4
    ipureintro; exact first_tot c i arg2 harg2 arg3 harg3 arg4 harg4 arg5 harg5 arg6 harg6 arg7 harg7 arg8 harg8 arg9 harg9 hc0 hc1 hc2 x0 x1 x2 x3 o4 o5 s8 s9
  isplitl [H5]
  · unfold owns; iexists _; isplitr; swap; · iexact H5
    ipureintro; exact first_cnt c i arg2 harg2 arg3 harg3 arg4 harg4 arg5 harg5 arg6 harg6 arg7 harg7 arg8 harg8 arg9 harg9 hc0 hc1 hc2 x0 x1 x2 x3 o4 o5 s8 s9
  isplitl [H8]
  · unfold owns; iexists _; isplitr; swap; · iexact H8
    ipureintro; exact first_acc c i arg2 harg2 arg3 harg3 arg4 harg4 arg5 harg5 arg6 harg6 arg7 harg7 arg8 harg8 arg9 harg9 hc0 hc1 hc2 x0 x1 x2 x3 o4 o5 s8 s9
  unfold owns; iexists _; isplitr; swap; · iexact H9
  ipureintro; exact first_sq c i arg2 harg2 arg3 harg3 arg4 harg4 arg5 harg5 arg6 harg6 arg7 harg7 arg8 harg8 arg9 harg9 hc0 hc1 hc2 x0 x1 x2 x3 o4 o5 s8 s9
end

end Cert.Kernel.Body

end
-- ==== Proof.K.RunTile.lean ====
/-
  The kernel body at the first column slab of a later row tile (k = 0, t ≠ 0): the accumulator's reset is
  taken, the outputs' reset and the masked reduction are not; the outputs' staging buffers are not touched.
  The run is stated on whole memrefs at named contents; the lists of stores are found by the run itself.
-/
import proofs.«155107_j85701777424698_1_alg».proof.Proof.K.Shared
import Idealize.ShloMosaic.Lib.Tactic
import proofs.«155107_j85701777424698_1_alg».proof.Proof.LibStoreRead

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runTile (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : ¬resetOut i) (hc1 : resetAcc i) (hc2 : ¬lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32) :
    { L : List (View.Piece (Elt F) S256x4096 .f32) × List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare o4 ∗ owns (c : Thread nD τ) arg7 fullShare o5
                ∗ (arg8.view.loc (c : Thread nD τ) ↦[arg8.view.set]{fullShare} arg8.view.writes (Elt F) (harg8.unread s8) L.1) ∗ (arg9.view.loc (c : Thread nD τ) ↦[arg9.view.set]{fullShare} arg9.view.writes (Elt F) (harg9.unread s9) L.2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨(?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf8; obtain rfl := harg9.eq_unread hf9
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexact H8
    iexact H9

section
variable (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : ¬resetOut i) (hc1 : resetAcc i) (hc2 : ¬lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32)

/-- The squares scratch after the run: the slab store over what it held. -/
theorem tile_sq : arg9.view.read (Elt F) (arg9.view.writes (Elt F) (harg9.unread s9) (runTile c i arg2 harg2 arg3 harg3 arg4 harg4 arg5 harg5 arg6 harg6 arg7 harg7 arg8 harg8 arg9 harg9 hc0 hc1 hc2 x0 x1 x2 x3 o4 o5 s8 s9).1.2) = sqAfter i s9 x1 x0 := by
  unfold runTile; dsimp only; sl_unfold_run_names
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The accumulator after the run. -/
theorem tile_acc : arg8.view.read (Elt F) (arg8.view.writes (Elt F) (harg8.unread s8) (runTile c i arg2 harg2 arg3 harg3 arg4 harg4 arg5 harg5 arg6 harg6 arg7 harg7 arg8 harg8 arg9 harg9 hc0 hc1 hc2 x0 x1 x2 x3 o4 o5 s8 s9).1.1) = k0_pay6 x1 x0 x2 (k0_pay3 (F := F)) := by
  unfold runTile; dsimp only; sl_unfold_run_names
  rw [StoreRead.read_writes_full_cons _ _ hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

include hc0 hc1 hc2 in
/-- THE BODY AT k = 0 of a later tile, on named contents: the inputs and both outputs are kept; the accumulator is
    reset to zero plus the slab's product, and the squares scratch takes the slab. -/
theorem tripleTile (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare o4 ∗ owns (c : Thread nD τ) arg7 fullShare o5
            ∗ owns (c : Thread nD τ) arg8 fullShare (k0_pay6 x1 x0 x2 (k0_pay3 (F := F))) ∗ owns (c : Thread nD τ) arg9 fullShare (sqAfter i s9 x1 x0)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  iintro ⟨H0, H1, H2, H3, H4, H5, H8, H9, Hk⟩
  iapply (runTile c i arg2 harg2 arg3 harg3 arg4 harg4 arg5 harg5 arg6 harg6 arg7 harg7 arg8 harg8 arg9 harg9 hc0 hc1 hc2 x0 x1 x2 x3 o4 o5 s8 s9).2 E K
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  iapply Hk
  isplitl [H0]; · iexact H0
  isplitl [H1]; · iexact H1
  isplitl [H2]; · iexact H2
  isplitl [H3]; · iexact H3
  isplitl [H4]; · iexact H4
  isplitl [H5]; · iexact H5
  isplitl [H8]
  · unfold owns; iexists _; isplitr; swap; · iexact H8
    ipureintro; exact tile_acc c i arg2 harg2 arg3 harg3 arg4 harg4 arg5 harg5 arg6 harg6 arg7 harg7 arg8 harg8 arg9 harg9 hc0 hc1 hc2 x0 x1 x2 x3 o4 o5 s8 s9
  unfold owns; iexists _; isplitr; swap; · iexact H9
  ipureintro; exact tile_sq c i arg2 harg2 arg3 harg3 arg4 harg4 arg5 harg5 arg6 harg6 arg7 harg7 arg8 harg8 arg9 harg9 hc0 hc1 hc2 x0 x1 x2 x3 o4 o5 s8 s9
end

end Cert.Kernel.Body

end
-- ==== Proof.K.RunMid.lean ====
/-
  The kernel body at an inner column slab (k = 1 … 6): no branch is taken; the outputs' staging buffers are
  not touched. The run is stated on whole memrefs at named contents; the lists of stores are found by the
  run itself.
-/
import proofs.«155107_j85701777424698_1_alg».proof.Proof.K.Shared
import Idealize.ShloMosaic.Lib.Tactic
import proofs.«155107_j85701777424698_1_alg».proof.Proof.LibStoreRead

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : ¬resetOut i) (hc1 : ¬resetAcc i) (hc2 : ¬lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32) :
    { L : List (View.Piece (Elt F) S256x4096 .f32) × List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare o4 ∗ owns (c : Thread nD τ) arg7 fullShare o5
                ∗ (arg8.view.loc (c : Thread nD τ) ↦[arg8.view.set]{fullShare} arg8.view.writes (Elt F) (harg8.unread s8) L.1) ∗ (arg9.view.loc (c : Thread nD τ) ↦[arg9.view.set]{fullShare} arg9.view.writes (Elt F) (harg9.unread s9) L.2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨(?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf8; obtain rfl := harg9.eq_unread hf9
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexact H8
    iexact H9

section
variable (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : ¬resetOut i) (hc1 : ¬resetAcc i) (hc2 : ¬lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32)

/-- The squares scratch after the run: the slab store over what it held. -/
theorem mid_sq : arg9.view.read (Elt F) (arg9.view.writes (Elt F) (harg9.unread s9) (runMid c i arg2 harg2 arg3 harg3 arg4 harg4 arg5 harg5 arg6 harg6 arg7 harg7 arg8 harg8 arg9 harg9 hc0 hc1 hc2 x0 x1 x2 x3 o4 o5 s8 s9).1.2) = sqAfter i s9 x1 x0 := by
  unfold runMid; dsimp only; sl_unfold_run_names
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The accumulator after the run. -/
theorem mid_acc : arg8.view.read (Elt F) (arg8.view.writes (Elt F) (harg8.unread s8) (runMid c i arg2 harg2 arg3 harg3 arg4 harg4 arg5 harg5 arg6 harg6 arg7 harg7 arg8 harg8 arg9 harg9 hc0 hc1 hc2 x0 x1 x2 x3 o4 o5 s8 s9).1.1) = k0_pay6 x1 x0 x2 s8 := by
  unfold runMid; dsimp only; sl_unfold_run_names
  rw [StoreRead.read_writes_full_cons _ _ hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

include hc0 hc1 hc2 in
/-- THE BODY AT k = 1 … 6, on named contents: the inputs and both outputs are kept; the accumulator takes the slab's
    product on top of what it held, and the squares scratch takes the slab. -/
theorem tripleMid (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare o4 ∗ owns (c : Thread nD τ) arg7 fullShare o5
            ∗ owns (c : Thread nD τ) arg8 fullShare (k0_pay6 x1 x0 x2 s8) ∗ owns (c : Thread nD τ) arg9 fullShare (sqAfter i s9 x1 x0)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  iintro ⟨H0, H1, H2, H3, H4, H5, H8, H9, Hk⟩
  iapply (runMid c i arg2 harg2 arg3 harg3 arg4 harg4 arg5 harg5 arg6 harg6 arg7 harg7 arg8 harg8 arg9 harg9 hc0 hc1 hc2 x0 x1 x2 x3 o4 o5 s8 s9).2 E K
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  iapply Hk
  isplitl [H0]; · iexact H0
  isplitl [H1]; · iexact H1
  isplitl [H2]; · iexact H2
  isplitl [H3]; · iexact H3
  isplitl [H4]; · iexact H4
  isplitl [H5]; · iexact H5
  isplitl [H8]
  · unfold owns; iexists _; isplitr; swap; · iexact H8
    ipureintro; exact mid_acc c i arg2 harg2 arg3 harg3 arg4 harg4 arg5 harg5 arg6 harg6 arg7 harg7 arg8 harg8 arg9 harg9 hc0 hc1 hc2 x0 x1 x2 x3 o4 o5 s8 s9
  unfold owns; iexists _; isplitr; swap; · iexact H9
  ipureintro; exact mid_sq c i arg2 harg2 arg3 harg3 arg4 harg4 arg5 harg5 arg6 harg6 arg7 harg7 arg8 harg8 arg9 harg9 hc0 hc1 hc2 x0 x1 x2 x3 o4 o5 s8 s9
end

end Cert.Kernel.Body

end
-- ==== Proof.K.RunLast.lean ====
/-
  The kernel body at a point with k = 7 (and t ≠ 0): neither reset is taken, the masked reduction is.
  The run is stated on whole memrefs at named contents and hands every buffer the body stores into back
  with its stores written, last first; the lists of stores are found by the run itself.
-/
import proofs.«155107_j85701777424698_1_alg».proof.Proof.K.Shared
import Idealize.ShloMosaic.Lib.Tactic
import proofs.«155107_j85701777424698_1_alg».proof.Proof.LibStoreRead

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : ¬resetOut i) (hc1 : ¬resetAcc i) (hc2 : lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32) :
    { L : List (View.Piece (Elt F) S1x1 .f32) × List (View.Piece (Elt F) S1x1 .f32) × List (View.Piece (Elt F) S256x4096 .f32) × List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (arg6.view.loc (c : Thread nD τ) ↦[arg6.view.set]{fullShare} arg6.view.writes (Elt F) (harg6.unread o4) L.1) ∗ (arg7.view.loc (c : Thread nD τ) ↦[arg7.view.set]{fullShare} arg7.view.writes (Elt F) (harg7.unread o5) L.2.1)
                ∗ (arg8.view.loc (c : Thread nD τ) ↦[arg8.view.set]{fullShare} arg8.view.writes (Elt F) (harg8.unread s8) L.2.2.1) ∗ (arg9.view.loc (c : Thread nD τ) ↦[arg9.view.set]{fullShare} arg9.view.writes (Elt F) (harg9.unread s9) L.2.2.2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨(?_, ?_, ?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf8; obtain rfl := harg9.eq_unread hf9
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H8]; · iexact H8
    iexact H9

section
variable (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : ¬resetOut i) (hc1 : ¬resetAcc i) (hc2 : lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32)

/-- The squares scratch after the run: the slab store over what it held. -/
theorem last_sq : arg9.view.read (Elt F) (arg9.view.writes (Elt F) (harg9.unread s9) (runLast c i arg2 harg2 arg3 harg3 arg4 harg4 arg5 harg5 arg6 harg6 arg7 harg7 arg8 harg8 arg9 harg9 hc0 hc1 hc2 x0 x1 x2 x3 o4 o5 s8 s9).1.2.2.2) = sqAfter i s9 x1 x0 := by
  unfold runLast; dsimp only; sl_unfold_run_names
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The accumulator after the run: what it held plus the slab's product. -/
theorem last_acc : arg8.view.read (Elt F) (arg8.view.writes (Elt F) (harg8.unread s8) (runLast c i arg2 harg2 arg3 harg3 arg4 harg4 arg5 harg5 arg6 harg6 arg7 harg7 arg8 harg8 arg9 harg9 hc0 hc1 hc2 x0 x1 x2 x3 o4 o5 s8 s9).1.2.2.1) = k0_pay6 x1 x0 x2 s8 := by
  unfold runLast; dsimp only; sl_unfold_run_names
  rw [StoreRead.read_writes_full _ _ hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The masked total after the run: what the output held plus the tile's masked sum of squares + products. -/
theorem last_tot : arg6.view.read (Elt F) (arg6.view.writes (Elt F) (harg6.unread o4) (runLast c i arg2 harg2 arg3 harg3 arg4 harg4 arg5 harg5 arg6 harg6 arg7 harg7 arg8 harg8 arg9 harg9 hc0 hc1 hc2 x0 x1 x2 x3 o4 o5 s8 s9).1.1) = k0_pay8 (sqAfter i s9 x1 x0) (k0_pay6 x1 x0 x2 s8) x3 o4 := by
  unfold runLast; dsimp only; sl_unfold_run_names
  rw [StoreRead.read_writes_full _ _ hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The mask count after the run: what the output held plus the tile's count. -/
theorem last_cnt : arg7.view.read (Elt F) (arg7.view.writes (Elt F) (harg7.unread o5) (runLast c i arg2 harg2 arg3 harg3 arg4 harg4 arg5 harg5 arg6 harg6 arg7 harg7 arg8 harg8 arg9 harg9 hc0 hc1 hc2 x0 x1 x2 x3 o4 o5 s8 s9).1.2.1) = k0_pay9 x3 o5 := by
  unfold runLast; dsimp only; sl_unfold_run_names
  rw [StoreRead.read_writes_full _ _ hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

include hc0 hc1 hc2 in
/-- THE BODY AT k = 7, on named contents: the inputs are kept; the squares scratch takes the slab, the accumulator the
    slab's product, and the two outputs the tile's masked total and mask count. -/
theorem tripleLast (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay8 (sqAfter i s9 x1 x0) (k0_pay6 x1 x0 x2 s8) x3 o4) ∗ owns (c : Thread nD τ) arg7 fullShare (k0_pay9 x3 o5)
            ∗ owns (c : Thread nD τ) arg8 fullShare (k0_pay6 x1 x0 x2 s8) ∗ owns (c : Thread nD τ) arg9 fullShare (sqAfter i s9 x1 x0)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  iintro ⟨H0, H1, H2, H3, H4, H5, H8, H9, Hk⟩
  iapply (runLast c i arg2 harg2 arg3 harg3 arg4 harg4 arg5 harg5 arg6 harg6 arg7 harg7 arg8 harg8 arg9 harg9 hc0 hc1 hc2 x0 x1 x2 x3 o4 o5 s8 s9).2 E K
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  iapply Hk
  isplitl [H0]; · iexact H0
  isplitl [H1]; · iexact H1
  isplitl [H2]; · iexact H2
  isplitl [H3]; · iexact H3
  isplitl [H4]
  · unfold owns; iexists _; isplitr; swap; · iexact H4
    ipureintro; exact last_tot c i arg2 harg2 arg3 harg3 arg4 harg4 arg5 harg5 arg6 harg6 arg7 harg7 arg8 harg8 arg9 harg9 hc0 hc1 hc2 x0 x1 x2 x3 o4 o5 s8 s9
  isplitl [H5]
  · unfold owns; iexists _; isplitr; swap; · iexact H5
    ipureintro; exact last_cnt c i arg2 harg2 arg3 harg3 arg4 harg4 arg5 harg5 arg6 harg6 arg7 harg7 arg8 harg8 arg9 harg9 hc0 hc1 hc2 x0 x1 x2 x3 o4 o5 s8 s9
  isplitl [H8]
  · unfold owns; iexists _; isplitr; swap; · iexact H8
    ipureintro; exact last_acc c i arg2 harg2 arg3 harg3 arg4 harg4 arg5 harg5 arg6 harg6 arg7 harg7 arg8 harg8 arg9 harg9 hc0 hc1 hc2 x0 x1 x2 x3 o4 o5 s8 s9
  unfold owns; iexists _; isplitr; swap; · iexact H9
  ipureintro; exact last_sq c i arg2 harg2 arg3 harg3 arg4 harg4 arg5 harg5 arg6 harg6 arg7 harg7 arg8 harg8 arg9 harg9 hc0 hc1 hc2 x0 x1 x2 x3 o4 o5 s8 s9
end

end Cert.Kernel.Body

end
-- ==== Proof.K.Body.lean ====
/-
  The body obligation of the kernel's pipeline and its frame run, at any float instance. At each grid point the
  body finds the inputs' blocks, the outputs' running values and the invariant's two scratch buffers; which of
  its three branches run is decided by the point (t = 0; k = 0; k = 7; else), and in each case the body's run
  on named contents (the four run modules) turns what it finds into the next point's values: the accumulator
  by its recursion, the squares scratch by the slab store, the outputs by the reset, the tile's update, or —
  where their windows are idle — not at all.
-/
import proofs.«155107_j85701777424698_1_alg».proof.Proof.K.Data
import proofs.«155107_j85701777424698_1_alg».proof.Proof.K.RunFirst
import proofs.«155107_j85701777424698_1_alg».proof.Proof.K.RunTile
import proofs.«155107_j85701777424698_1_alg».proof.Proof.K.RunMid
import proofs.«155107_j85701777424698_1_alg».proof.Proof.K.RunLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mY t) fullShare ((dats m 0 c).before 1 t d))
    ∗ (∃ d, owns (c : Thread nD τ) (mA t) fullShare ((dats m 0 c).before 2 t d))
    ∗ (∃ d, owns (c : Thread nD τ) (mM t) fullShare ((dats m 0 c).before 3 t d))
    ∗ (∃ d, owns (c : Thread nD τ) (mT t) fullShare ((dats m 0 c).before 4 t d))
    ∗ (∃ d, owns (c : Thread nD τ) (mC t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiAt m c (t.val + 1) t.isLt from rfl, PhiAt_succ]
  have hN : t.val < 64 := lt_of_lt_of_eq t.isLt N_eq
  by_cases hz : t.val = 0
  · -- the first point: both resets are taken
    have h8 : t.val % 8 = 0 := by omega
    rw [show (dats m 0 c).leavesExact 0 t = owns (c : Thread nD τ) (mX t) fullShare ((dats m 0 c).after 0 t) from by
      unfold Dat.leavesExact; rw [live_0 t], after_0]
    rw [show (dats m 0 c).leavesExact 1 t = owns (c : Thread nD τ) (mY t) fullShare ((dats m 0 c).after 1 t) from by
      unfold Dat.leavesExact; rw [live_1 t], after_1]
    rw [show (dats m 0 c).leavesExact 2 t = owns (c : Thread nD τ) (mA t) fullShare ((dats m 0 c).after 2 t) from by
      unfold Dat.leavesExact; rw [live_2 t], after_2]
    rw [show (dats m 0 c).leavesExact 3 t = owns (c : Thread nD τ) (mM t) fullShare ((dats m 0 c).after 3 t) from by
      unfold Dat.leavesExact; rw [live_3 t], after_3]
    rw [show (dats m 0 c).leavesExact 4 t = owns (c : Thread nD τ) (mT t) fullShare ((dats m 0 c).after 4 t) from by
      unfold Dat.leavesExact; rw [idle_4_false t (.inl hz)], after_4]
    rw [show (dats m 0 c).leavesExact 5 t = owns (c : Thread nD τ) (mC t) fullShare ((dats m 0 c).after 5 t) from by
      unfold Dat.leavesExact; rw [idle_5_false t (.inl hz)], after_5]
    rw [totAt_zero m c t hz, cntAt_zero m c t hz, accAt_reset m c t h8]
    simp only [before_4_zero m c t hz, before_5_zero m c t hz]
    rw [Phi_castSucc m c t, PhiAt_zero m c _ _ hz, PhiA_eq]
    iintro ⟨⟨⟨⟨%s8, HS0⟩, ⟨%s9, HS1⟩⟩, Hg⟩, Ho, ⟨%d0, H0⟩, ⟨%d1, H1⟩, ⟨%d2, H2⟩, ⟨%d3, H3⟩, ⟨%o4, H4⟩, ⟨%o5, H5⟩⟩
    iapply (tripleFirst c (grid0.coords t) (mX t) (hX t) (mY t) (hY t) (mA t) (hA t) (mM t) (hM t) (mT t) (hT t) (mC t) (hC t) mAcc hAcc mSq hSq
      ((resetOut_iff t).mpr hz) ((resetAcc_iff t).mpr h8) (fun h => by have := (lastSlab_iff t).mp h; omega)
      (iblk m c 0 t) (iblk m c 1 t) (iblk m c 2 t) (iblk m c 3 t) o4 o5 s8 s9 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexists _; isplitr; swap; · iexact HS1
        ipureintro; exact SqOK_store m c t s9 (.inl h8)
      iexact Hg
    isplitl [Ho]; · iexact Ho
    isplitl [H0]; · iexact H0
    isplitl [H1]; · iexact H1
    isplitl [H2]; · iexact H2
    isplitl [H3]; · iexact H3
    isplitl [H4]; · iexact H4
    iexact H5
  rw [Phi_castSucc m c t, PhiAt_pos m c _ _ hz]
  by_cases h8 : t.val % 8 = 0
  · -- the first slab of a later tile: the accumulator's reset; the outputs' windows are idle
    have h7' : ¬t.val % 8 = 7 := by omega
    rw [show (dats m 0 c).leavesExact 0 t = owns (c : Thread nD τ) (mX t) fullShare ((dats m 0 c).after 0 t) from by
      unfold Dat.leavesExact; rw [live_0 t], after_0]
    rw [show (dats m 0 c).leavesExact 1 t = owns (c : Thread nD τ) (mY t) fullShare ((dats m 0 c).after 1 t) from by
      unfold Dat.leavesExact; rw [live_1 t], after_1]
    rw [show (dats m 0 c).leavesExact 2 t = owns (c : Thread nD τ) (mA t) fullShare ((dats m 0 c).after 2 t) from by
      unfold Dat.leavesExact; rw [live_2 t], after_2]
    rw [show (dats m 0 c).leavesExact 3 t = owns (c : Thread nD τ) (mM t) fullShare ((dats m 0 c).after 3 t) from by
      unfold Dat.leavesExact; rw [live_3 t], after_3]
    rw [(dats m 0 c).leavesExact_idle 4 t (idle_4_true t hz h7') (noflush_4 t (by omega))]
    rw [(dats m 0 c).leavesExact_idle 5 t (idle_5_true t hz h7') (noflush_5 t (by omega))]
    rw [accAt_reset m c t h8]
    simp only [before_4_pos m c t hz, before_5_pos m c t hz]
    iintro ⟨⟨⟨HS0, ⟨%s9, %hs9, HS1⟩⟩, Hg⟩, Ho, ⟨%d0, H0⟩, ⟨%d1, H1⟩, ⟨%d2, H2⟩, ⟨%d3, H3⟩, ⟨%d4, H4⟩, ⟨%d5, H5⟩⟩
    iapply (tripleTile c (grid0.coords t) (mX t) (hX t) (mY t) (hY t) (mA t) (hA t) (mM t) (hM t) (mT t) (hT t) (mC t) (hC t) mAcc hAcc mSq hSq
      (fun h => hz ((resetOut_iff t).mp h)) ((resetAcc_iff t).mpr h8) (fun h => h7' ((lastSlab_iff t).mp h))
      (iblk m c 0 t) (iblk m c 1 t) (iblk m c 2 t) (iblk m c 3 t) _ _ _ s9 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexists _; isplitr; swap; · iexact HS1
        ipureintro; exact SqOK_store m c t s9 (.inl h8)
      iexact Hg
    isplitl [Ho]; · iexact Ho
    isplitl [H0]; · iexact H0
    isplitl [H1]; · iexact H1
    isplitl [H2]; · iexact H2
    isplitl [H3]; · iexact H3
    isplitl [H4]; · iexists d4; iexact H4
    iexists d5; iexact H5
  by_cases h7 : t.val % 8 = 7
  · -- the last slab of a tile: the masked reduction
    rw [show (dats m 0 c).leavesExact 0 t = owns (c : Thread nD τ) (mX t) fullShare ((dats m 0 c).after 0 t) from by
      unfold Dat.leavesExact; rw [live_0 t], after_0]
    rw [show (dats m 0 c).leavesExact 1 t = owns (c : Thread nD τ) (mY t) fullShare ((dats m 0 c).after 1 t) from by
      unfold Dat.leavesExact; rw [live_1 t], after_1]
    rw [show (dats m 0 c).leavesExact 2 t = owns (c : Thread nD τ) (mA t) fullShare ((dats m 0 c).after 2 t) from by
      unfold Dat.leavesExact; rw [live_2 t], after_2]
    rw [show (dats m 0 c).leavesExact 3 t = owns (c : Thread nD τ) (mM t) fullShare ((dats m 0 c).after 3 t) from by
      unfold Dat.leavesExact; rw [live_3 t], after_3]
    rw [show (dats m 0 c).leavesExact 4 t = owns (c : Thread nD τ) (mT t) fullShare ((dats m 0 c).after 4 t) from by
      unfold Dat.leavesExact; rw [idle_4_false t (.inr h7)], after_4]
    rw [show (dats m 0 c).leavesExact 5 t = owns (c : Thread nD τ) (mC t) fullShare ((dats m 0 c).after 5 t) from by
      unfold Dat.leavesExact; rw [idle_5_false t (.inr h7)], after_5]
    rw [totAt_last m c t h7, cntAt_last m c t h7, accAt_step m c t h8]
    simp only [before_4_pos m c t hz, before_5_pos m c t hz]
    iintro ⟨⟨⟨HS0, ⟨%s9, %hs9, HS1⟩⟩, Hg⟩, Ho, ⟨%d0, H0⟩, ⟨%d1, H1⟩, ⟨%d2, H2⟩, ⟨%d3, H3⟩, ⟨%d4, H4⟩, ⟨%d5, H5⟩⟩
    have hsq : sqAfter (grid0.coords t) s9 (yB m c t) (xB m c t) = sqTile m c t :=
      SqOK_full m c t h7 _ (SqOK_store m c t s9 (.inr hs9))
    rw [← hsq]
    iapply (tripleLast c (grid0.coords t) (mX t) (hX t) (mY t) (hY t) (mA t) (hA t) (mM t) (hM t) (mT t) (hT t) (mC t) (hC t) mAcc hAcc mSq hSq
      (fun h => hz ((resetOut_iff t).mp h)) (fun h => h8 ((resetAcc_iff t).mp h)) ((lastSlab_iff t).mpr h7)
      (iblk m c 0 t) (iblk m c 1 t) (iblk m c 2 t) (iblk m c 3 t) _ _ _ s9 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexists _; isplitr; swap; · iexact HS1
        ipureintro; exact SqOK_store m c t s9 (.inr hs9)
      iexact Hg
    isplitl [Ho]; · iexact Ho
    isplitl [H0]; · iexact H0
    isplitl [H1]; · iexact H1
    isplitl [H2]; · iexact H2
    isplitl [H3]; · iexact H3
    isplitl [H4]; · iexact H4
    iexact H5
  -- an inner slab: the accumulator's update; the outputs' windows are idle
  have h7' : ¬t.val % 8 = 7 := by omega
  rw [show (dats m 0 c).leavesExact 0 t = owns (c : Thread nD τ) (mX t) fullShare ((dats m 0 c).after 0 t) from by
    unfold Dat.leavesExact; rw [live_0 t], after_0]
  rw [show (dats m 0 c).leavesExact 1 t = owns (c : Thread nD τ) (mY t) fullShare ((dats m 0 c).after 1 t) from by
    unfold Dat.leavesExact; rw [live_1 t], after_1]
  rw [show (dats m 0 c).leavesExact 2 t = owns (c : Thread nD τ) (mA t) fullShare ((dats m 0 c).after 2 t) from by
    unfold Dat.leavesExact; rw [live_2 t], after_2]
  rw [show (dats m 0 c).leavesExact 3 t = owns (c : Thread nD τ) (mM t) fullShare ((dats m 0 c).after 3 t) from by
    unfold Dat.leavesExact; rw [live_3 t], after_3]
  rw [(dats m 0 c).leavesExact_idle 4 t (idle_4_true t hz h7') (noflush_4 t (by omega))]
  rw [(dats m 0 c).leavesExact_idle 5 t (idle_5_true t hz h7') (noflush_5 t (by omega))]
  rw [accAt_step m c t h8]
  simp only [before_4_pos m c t hz, before_5_pos m c t hz]
  iintro ⟨⟨⟨HS0, ⟨%s9, %hs9, HS1⟩⟩, Hg⟩, Ho, ⟨%d0, H0⟩, ⟨%d1, H1⟩, ⟨%d2, H2⟩, ⟨%d3, H3⟩, ⟨%d4, H4⟩, ⟨%d5, H5⟩⟩
  iapply (tripleMid c (grid0.coords t) (mX t) (hX t) (mY t) (hY t) (mA t) (hA t) (mM t) (hM t) (mT t) (hT t) (mC t) (hC t) mAcc hAcc mSq hSq
    (fun h => hz ((resetOut_iff t).mp h)) (fun h => h8 ((resetAcc_iff t).mp h)) (fun h => h7' ((lastSlab_iff t).mp h))
    (iblk m c 0 t) (iblk m c 1 t) (iblk m c 2 t) (iblk m c 3 t) _ _ _ s9 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]; · iexact HS0
      iexists _; isplitr; swap; · iexact HS1
      ipureintro; exact SqOK_store m c t s9 (.inr hs9)
    iexact Hg
  isplitl [Ho]; · iexact Ho
  isplitl [H0]; · iexact H0
  isplitl [H1]; · iexact H1
  isplitl [H2]; · iexact H2
  isplitl [H3]; · iexact H3
  isplitl [H4]; · iexists d4; iexact H4
  iexists d5; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiAt m c 0 (Nat.zero_le _) from rfl, PhiAt_zero m c 0 _ rfl]

/-- After the last point the invariant gives it back: the scratch buffers' named contents are forgotten. -/
theorem hout (c : Dev nD) : (dats m 0 c).Φ (Fin.last cfg0.N) ⊢ Pipeline.ΦA spec0 c := by
  have hne : (Fin.last cfg0.N).val ≠ 0 := by rw [Fin.val_last]; have : cfg0.N = 64 := N_eq; omega
  rw [show (dats m 0 c).Φ (Fin.last cfg0.N) = PhiAt m c (Fin.last cfg0.N).val (Nat.le_of_lt_succ (Fin.last cfg0.N).isLt) from rfl,
    PhiAt_pos m c _ _ hne, PhiA_eq]
  iintro ⟨⟨HS0, ⟨%d, %hd, HS1⟩⟩, Hg⟩
  isplitl [HS0 HS1]
  · isplitl [HS0]
    · iexists _; iexact HS0
    iexists _; iexact HS1
  iexact Hg

/-- THE RUN: every weakly fair execution of @main terminates, each array of the pipeline ends at what the proof
    data computes for it (an input unchanged, an output at what the body left at its write-back), and every
    other unscoped buffer at what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the kernel's program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KI.Shared.lean ====
/-
  What the four runs of the kernel body share: the three branch conditions of the body as propositions
  over the grid coordinates, with their closed forms over the linear point t = 8·i + k (the row-tile i
  and the column-slab k of the 8 × 8 grid): the outputs are reset at t = 0 only, the matmul accumulator
  at k = 0, and the masked reduction runs at k = 7; the staging memrefs of a point; and the two scratch
  buffers as whole memrefs.
-/
import proofs.«155107_j85701777424698_1_alg».proof.Proof.Gen.KernelIdeal.Frame
import proofs.«155107_j85701777424698_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The outputs' reset: the first branch of the body, taken at the grid's first point only. -/
abbrev resetOut (i : grid0.Coords) : Prop := k0_cond1 i = 1#1
theorem resetOut_iff : ∀ t : Fin cfg0.N, resetOut (grid0.coords t) ↔ t.val = 0 :=
  (by decide +kernel : ∀ t : Fin grid0.N, resetOut (grid0.coords t) ↔ t.val = 0)

/-- The accumulator's reset: the second branch, taken at the first column slab of every row tile. -/
abbrev resetAcc (i : grid0.Coords) : Prop :=
  (Scalar.cmpi .ne (Scalar.extui (Scalar.cmpi .eq (BitVec.ofNat 32 (i 1).val) 0#32)) 0#32) = 1#1
theorem resetAcc_iff : ∀ t : Fin cfg0.N, resetAcc (grid0.coords t) ↔ t.val % 8 = 0 :=
  (by decide +kernel : ∀ t : Fin grid0.N, resetAcc (grid0.coords t) ↔ t.val % 8 = 0)

/-- The masked reduction: the third branch, taken at the last column slab of every row tile. -/
abbrev lastSlab (i : grid0.Coords) : Prop := k0_cond3 i = 1#1
theorem lastSlab_iff : ∀ t : Fin cfg0.N, lastSlab (grid0.coords t) ↔ t.val % 8 = 7 :=
  (by decide +kernel : ∀ t : Fin grid0.N, lastSlab (grid0.coords t) ↔ t.val % 8 = 7)

/-- The column offset of slab k in the full-width scratch: 512·k. -/
theorem off1_eq : ∀ t : Fin cfg0.N, k0_off1 (grid0.coords t) = ![0, 512 * (t.val % 8)] :=
  (by decide +kernel : ∀ t : Fin grid0.N, k0_off1 (grid0.coords t) = ![0, 512 * (t.val % 8)])

/-- The input windows are live at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
/-- The two output windows are live exactly where the body stores into them: at the first point and at k = 7. -/
theorem idle_4 : ∀ t : Fin cfg0.N, cfg0.idle 4 (grid0.coords t) = (!decide (t.val = 0) && !decide (t.val % 8 = 7)) := by decide +kernel
theorem idle_5 : ∀ t : Fin cfg0.N, cfg0.idle 5 (grid0.coords t) = (!decide (t.val = 0) && !decide (t.val % 8 = 7)) := by decide +kernel

/-- The staging memrefs the pipeline passes at point t, and their wholeness. -/
abbrev mY (t : Fin cfg0.N) : Memref sig .tc .vmem S256x512 .f32 := win0_1.stage (cfg0.slots t 1)
abbrev mX (t : Fin cfg0.N) : Memref sig .tc .vmem S256x512 .f32 := win0_0.stage (cfg0.slots t 0)
abbrev mA (t : Fin cfg0.N) : Memref sig .tc .vmem S4096x512 .bf16 := win0_2.stage (cfg0.slots t 2)
abbrev mM (t : Fin cfg0.N) : Memref sig .tc .vmem S256x4096 .i32 := win0_3.stage (cfg0.slots t 3)
abbrev mT (t : Fin cfg0.N) : Memref sig .tc .vmem S1x1 .f32 := win0_4.stage (cfg0.slots t 4)
abbrev mC (t : Fin cfg0.N) : Memref sig .tc .vmem S1x1 .f32 := win0_5.stage (cfg0.slots t 5)
abbrev hX (t : Fin cfg0.N) : (mX t).IsWhole := hstage0_0 ((cfg0.slots t 0).cast nbuf0_0)
abbrev hY (t : Fin cfg0.N) : (mY t).IsWhole := hstage0_1 ((cfg0.slots t 1).cast nbuf0_1)
abbrev hA (t : Fin cfg0.N) : (mA t).IsWhole := hstage0_2 ((cfg0.slots t 2).cast nbuf0_2)
abbrev hM (t : Fin cfg0.N) : (mM t).IsWhole := hstage0_3 ((cfg0.slots t 3).cast nbuf0_3)
abbrev hT (t : Fin cfg0.N) : (mT t).IsWhole := hstage0_4 ((cfg0.slots t 4).cast nbuf0_4)
abbrev hC (t : Fin cfg0.N) : (mC t).IsWhole := hstage0_5 ((cfg0.slots t 5).cast nbuf0_5)
/-- The matmul accumulator and the full-width squares, the kernel's two scratch buffers. -/
abbrev mAcc : Memref sig .tc .vmem S256x4096 .f32 := Memref.whole cc0_scratch0
abbrev mSq : Memref sig .tc .vmem S256x4096 .f32 := Memref.whole cc0_scratch1
abbrev hAcc : (mAcc).IsWhole := Memref.isWhole_whole _
abbrev hSq : (mSq).IsWhole := Memref.isWhole_whole _

/-- What the launch hands the region besides the windows: both scratch buffers at some contents, and the
    generator register at some state. -/
theorem PhiA_eq (c : Dev nD) :
    (Pipeline.ΦA spec0 c : sProp 𝕄)
      = iprop(iprop((∃ d, owns (c : Thread nD τ) mAcc fullShare d) ∗ (∃ d, owns (c : Thread nD τ) mSq fullShare d)) ∗ (∃ r, prngReg c r)) := by
  unfold Pipeline.ΦA; rw [scopedRest0_eq]; simp only [mAcc, mSq, owns_whole]; try rfl

/-- The full-width squares after the body's slab store: the slab's 512 columns at the squared differences of
    the point's blocks, every other column as it was. -/
abbrev sqAfter (i : grid0.Coords) (s9 : Vec F S256x4096 .f32) (y x : Vec F S256x512 .f32) : Vec F S256x4096 .f32 :=
  (Rect.unit (s := S256x4096) (k0_off1 i) S256x512.size (k0_off1_inb i)).overlay s9 (k0_pay5 y x)

theorem hz : (![0, 0] : Fin 2 → Nat) = fun _ => 0 := funext fun a => by fin_cases a <;> rfl

end Cert.KernelIdeal.Body

end
-- ==== Proof.KI.Spec.lean ====
/-
  What the kernel's buffers hold after each grid point, as functions of the argument arrays — the contents
  the proof data names. The grid is 8 row tiles × 8 column slabs, t = 8·i + k; a point reads the 256 × 512
  blocks (i, k) of y and ŷ, the 4096 × 512 column slab k of the neighbour matrix, and the 256 × 4096 row
  tile i of the mask.

  * accAt t  — the matmul accumulator: reset at k = 0, then the slab's product added at every point.
  * sqTile t — the squared differences of row tile i over all 4096 columns, slab k' of it from point 8·i + k'.
  * SqOK t d — the squares scratch d is right on the slabs 0 … k the tile has stored so far.
  * totAt t, cntAt t — the two outputs: zero at t = 0, the tile's masked total / mask count added at k = 7,
    and kept at every other point.
  All generic in the float instance: they are compositions of the body's own payload terms.
-/
import proofs.«155107_j85701777424698_1_alg».proof.Proof.KI.Shared
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem N_eq : cfg0.N = 64 := N_0

/-- The point's blocks, at their literal types. -/
abbrev xB (c : Dev nD) (t : Fin cfg0.N) : Vec F S256x512 .f32 := iblk m c 0 t
abbrev yB (c : Dev nD) (t : Fin cfg0.N) : Vec F S256x512 .f32 := iblk m c 1 t
abbrev aB (c : Dev nD) (t : Fin cfg0.N) : Vec F S4096x512 .bf16 := iblk m c 2 t
abbrev kB (c : Dev nD) (t : Fin cfg0.N) : Vec F S256x4096 .i32 := iblk m c 3 t

/-- The matmul accumulator after point n: at k = 0 the zero block plus the slab's product, else what the
    point before left plus the slab's product. -/
def accAt (c : Dev nD) : (n : ℕ) → n < cfg0.N → Vec F S256x4096 .f32
  | 0, h => k0_pay6 (yB m c ⟨0, h⟩) (xB m c ⟨0, h⟩) (aB m c ⟨0, h⟩) (k0_pay3 (F := F))
  | n + 1, h => k0_pay6 (yB m c ⟨n + 1, h⟩) (xB m c ⟨n + 1, h⟩) (aB m c ⟨n + 1, h⟩)
      (if (n + 1) % 8 = 0 then (k0_pay3 (F := F)) else accAt c n (Nat.lt_of_succ_lt h))

theorem accAt_reset (c : Dev nD) (t : Fin cfg0.N) (h : t.val % 8 = 0) :
    accAt m c t.val t.isLt = k0_pay6 (yB m c t) (xB m c t) (aB m c t) (k0_pay3 (F := F)) := by
  obtain ⟨n, hn⟩ := t
  cases n with
  | zero => rfl
  | succ n => simp only [accAt]; rw [if_pos h]

theorem accAt_step (c : Dev nD) (t : Fin cfg0.N) (h : ¬t.val % 8 = 0) :
    accAt m c t.val t.isLt = k0_pay6 (yB m c t) (xB m c t) (aB m c t)
      (accAt m c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

theorem tile_lt (t : Fin cfg0.N) (j : S256x4096.Idx) : 8 * (t.val / 8) + (j 1).val / 512 < cfg0.N := by
  have h1 : (j 1).val < 4096 := idx2_lt1 j
  have h2 : t.val < 64 := lt_of_lt_of_eq t.isLt N_eq
  exact lt_of_lt_of_eq (by omega : 8 * (t.val / 8) + (j 1).val / 512 < 64) N_eq.symm

/-- The squared differences of the point's row tile over all 4096 columns: column q of slab q / 512 is
    that slab's block of squares at column q mod 512. -/
def sqTile (c : Dev nD) (t : Fin cfg0.N) : Vec F S256x4096 .f32 := fun j =>
  k0_pay5 (yB m c ⟨8 * (t.val / 8) + (j 1).val / 512, tile_lt t j⟩) (xB m c ⟨8 * (t.val / 8) + (j 1).val / 512, tile_lt t j⟩)
    (ix2 (⟨(j 0).val, idx2_lt0 j⟩ : Fin 256) (⟨(j 1).val % 512, Nat.mod_lt _ (by norm_num)⟩ : Fin 512))

theorem sqTile_congr (c : Dev nD) (t t' : Fin cfg0.N) (h : t.val / 8 = t'.val / 8) : sqTile m c t = sqTile m c t' := by
  funext j; unfold sqTile; simp only [h]

/-- The squares scratch is right on the slabs the tile has stored up to point t. -/
def SqOK (c : Dev nD) (t : Fin cfg0.N) (d : Vec F S256x4096 .f32) : Prop :=
  ∀ j : S256x4096.Idx, (j 1).val < 512 * (t.val % 8 + 1) → d j = sqTile m c t j

/-- The masked total after point n: zero at the first point, the tile's masked sum added at k = 7, kept elsewhere. -/
def totAt (c : Dev nD) : (n : ℕ) → n < cfg0.N → Vec F S1x1 .f32
  | 0, _ => (k0_pay1 (F := F))
  | n + 1, h =>
    if (n + 1) % 8 = 7 then
      k0_pay8 (sqTile m c ⟨n + 1, h⟩) (accAt m c (n + 1) h) (kB m c ⟨n + 1, h⟩) (totAt c n (Nat.lt_of_succ_lt h))
    else totAt c n (Nat.lt_of_succ_lt h)

/-- The mask count after point n. -/
def cntAt (c : Dev nD) : (n : ℕ) → n < cfg0.N → Vec F S1x1 .f32
  | 0, _ => (k0_pay2 (F := F))
  | n + 1, h =>
    if (n + 1) % 8 = 7 then k0_pay9 (kB m c ⟨n + 1, h⟩) (cntAt c n (Nat.lt_of_succ_lt h))
    else cntAt c n (Nat.lt_of_succ_lt h)

theorem totAt_zero (c : Dev nD) (t : Fin cfg0.N) (h : t.val = 0) : totAt m c t.val t.isLt = (k0_pay1 (F := F)) := by
  obtain ⟨n, hn⟩ := t; subst h; rfl
theorem cntAt_zero (c : Dev nD) (t : Fin cfg0.N) (h : t.val = 0) : cntAt m c t.val t.isLt = (k0_pay2 (F := F)) := by
  obtain ⟨n, hn⟩ := t; subst h; rfl

theorem totAt_last (c : Dev nD) (t : Fin cfg0.N) (h : t.val % 8 = 7) :
    totAt m c t.val t.isLt = k0_pay8 (sqTile m c t) (accAt m c t.val t.isLt) (kB m c t)
      (totAt m c (t.val - 1) (Nat.lt_of_le_of_lt (Nat.sub_le _ _) t.isLt)) := by
  obtain ⟨n, hn⟩ := t
  cases n with
  | zero => exact absurd h (by norm_num)
  | succ n => simp only [totAt]; rw [if_pos h]; rfl
theorem cntAt_last (c : Dev nD) (t : Fin cfg0.N) (h : t.val % 8 = 7) :
    cntAt m c t.val t.isLt = k0_pay9 (kB m c t) (cntAt m c (t.val - 1) (Nat.lt_of_le_of_lt (Nat.sub_le _ _) t.isLt)) := by
  obtain ⟨n, hn⟩ := t
  cases n with
  | zero => exact absurd h (by norm_num)
  | succ n => simp only [cntAt]; rw [if_pos h]; rfl

theorem totAt_keep (c : Dev nD) (t : Fin cfg0.N) (h0 : t.val ≠ 0) (h : ¬t.val % 8 = 7) :
    totAt m c t.val t.isLt = totAt m c (t.val - 1) (Nat.lt_of_le_of_lt (Nat.sub_le _ _) t.isLt) := by
  obtain ⟨n, hn⟩ := t
  cases n with
  | zero => exact absurd rfl h0
  | succ n => simp only [totAt]; rw [if_neg h]; rfl
theorem cntAt_keep (c : Dev nD) (t : Fin cfg0.N) (h0 : t.val ≠ 0) (h : ¬t.val % 8 = 7) :
    cntAt m c t.val t.isLt = cntAt m c (t.val - 1) (Nat.lt_of_le_of_lt (Nat.sub_le _ _) t.isLt) := by
  obtain ⟨n, hn⟩ := t
  cases n with
  | zero => exact absurd rfl h0
  | succ n => simp only [cntAt]; rw [if_neg h]; rfl

end Cert.KernelIdeal.Body

end
-- ==== Proof.KI.Data.lean ====
/-
  The proof data of the kernel's pipeline, with every buffer named: after the body at point t the inputs'
  staging buffers hold their blocks, the two outputs' the running masked total and mask count (totAt, cntAt);
  between points the invariant holds the matmul accumulator at accAt and the squares scratch at contents that
  are right on the slabs stored so far (SqOK). The outputs' windows are idle wherever the body does not store
  into them (every point but t = 0 and k = 7): there the buffer is found as the last live point left it,
  which is the running value itself, since that value does not change at an idle point.
-/
import proofs.«155107_j85701777424698_1_alg».proof.Proof.KI.Spec
import proofs.«155107_j85701777424698_1_alg».proof.Proof.LibStoreRead

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The squares scratch, slab by slab -/

theorem slab_idx (t : Fin cfg0.N) (j : S256x4096.Idx) (hlo : 512 * (t.val % 8) ≤ (j 1).val) (hhi : (j 1).val < 512 * (t.val % 8 + 1)) :
    j = (Rect.unit (s := S256x4096) (k0_off1 (grid0.coords t)) S256x512.size (k0_off1_inb (grid0.coords t))).emb
      (ix2 (⟨(j 0).val, idx2_lt0 j⟩ : Fin 256) (⟨(j 1).val - 512 * (t.val % 8), by omega⟩ : Fin 512)) := by
  have h0 : k0_off1 (grid0.coords t) 0 = 0 := by rw [off1_eq t]; rfl
  have h1 : k0_off1 (grid0.coords t) 1 = 512 * (t.val % 8) := by rw [off1_eq t]; rfl
  funext a; apply Fin.ext
  rw [Rect.emb_apply]
  match a with
  | ⟨0, _⟩ => show (j 0).val = k0_off1 (grid0.coords t) 0 + 1 * (j 0).val; omega
  | ⟨1, _⟩ => show (j 1).val = k0_off1 (grid0.coords t) 1 + 1 * ((j 1).val - 512 * (t.val % 8)); omega

theorem not_in_slab (t : Fin cfg0.N) (j : S256x4096.Idx) (h : (j 1).val < 512 * (t.val % 8)) :
    j ∉ (Rect.unit (s := S256x4096) (k0_off1 (grid0.coords t)) S256x512.size (k0_off1_inb (grid0.coords t))).set := by
  rw [Rect.mem_set_unit]
  intro hall
  have h1 : k0_off1 (grid0.coords t) 1 = 512 * (t.val % 8) := by rw [off1_eq t]; rfl
  have h2 : k0_off1 (grid0.coords t) 1 ≤ (j 1).val := (hall 1).1
  omega

/-- Storing the point's slab keeps the scratch right: on the slab by the store, on the earlier slabs of the
    tile by what the point before left (none at k = 0). -/
theorem SqOK_store (c : Dev nD) (t : Fin cfg0.N) (d : Vec F S256x4096 .f32)
    (hprev : t.val % 8 = 0 ∨ SqOK m c ⟨t.val - 1, Nat.lt_of_le_of_lt (Nat.sub_le _ _) t.isLt⟩ d) :
    SqOK m c t (sqAfter (grid0.coords t) d (yB m c t) (xB m c t)) := by
  intro j hj
  have hN : t.val < 64 := lt_of_lt_of_eq t.isLt N_eq
  by_cases hlo : 512 * (t.val % 8) ≤ (j 1).val
  · have e := slab_idx t j hlo hj
    have et : (⟨8 * (t.val / 8) + (j 1).val / 512, tile_lt t j⟩ : Fin cfg0.N) = t := Fin.ext (by show 8 * (t.val / 8) + (j 1).val / 512 = t.val; omega)
    unfold sqAfter sqTile
    rw [et]
    conv_lhs => rw [e]
    rw [Rect.overlay_emb]
    congr 2
    apply Fin.ext
    show (j 1).val - 512 * (t.val % 8) = (j 1).val % 512
    omega
  · have hlt : (j 1).val < 512 * (t.val % 8) := by omega
    have h0 : ¬t.val % 8 = 0 := by omega
    rcases hprev with hp | hp
    · exact absurd hp h0
    · unfold sqAfter
      rw [Rect.overlay_of_not_mem _ _ _ (not_in_slab t j hlt)]
      rw [hp j (by show (j 1).val < 512 * ((t.val - 1) % 8 + 1); omega)]
      exact congrFun (sqTile_congr m c _ t (by show (t.val - 1) / 8 = t.val / 8; omega)) j

/-- At k = 7 the scratch is the tile's squares everywhere. -/
theorem SqOK_full (c : Dev nD) (t : Fin cfg0.N) (h7 : t.val % 8 = 7) (d : Vec F S256x4096 .f32) (hd : SqOK m c t d) :
    d = sqTile m c t :=
  funext fun j => hd j (by have := idx2_lt1 j; omega)

/-! ## The invariant between points -/

/-- Before the first point what the launch hands over (both scratch buffers at anything); after point n the
    accumulator at accAt n, the squares scratch right up to point n, the generator register at some state. -/
def PhiAt (c : Dev nD) : (n : ℕ) → n ≤ cfg0.N → sProp 𝕄
  | 0, _ => Pipeline.ΦA spec0 c
  | n + 1, hn => iprop(iprop(owns (c : Thread nD τ) mAcc fullShare (accAt m c n hn)
      ∗ (∃ d, ⌜SqOK m c ⟨n, hn⟩ d⌝ ∗ owns (c : Thread nD τ) mSq fullShare d)) ∗ (∃ r, prngReg c r))

theorem PhiAt_zero (c : Dev nD) (n : ℕ) (h : n ≤ cfg0.N) (hz : n = 0) : PhiAt m c n h = Pipeline.ΦA spec0 c := by
  subst hz; rfl

theorem PhiAt_succ (c : Dev nD) (n : ℕ) (hn : n < cfg0.N) :
    PhiAt m c (n + 1) hn = iprop(iprop(owns (c : Thread nD τ) mAcc fullShare (accAt m c n hn)
      ∗ (∃ d, ⌜SqOK m c ⟨n, hn⟩ d⌝ ∗ owns (c : Thread nD τ) mSq fullShare d)) ∗ (∃ r, prngReg c r)) := rfl

theorem PhiAt_pos (c : Dev nD) (n : ℕ) (h : n ≤ cfg0.N) (hz : n ≠ 0) :
    PhiAt m c n h = iprop(iprop(owns (c : Thread nD τ) mAcc fullShare (accAt m c (n - 1) (by omega))
      ∗ (∃ d, ⌜SqOK m c ⟨n - 1, by omega⟩ d⌝ ∗ owns (c : Thread nD τ) mSq fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => totAt m c t.val t.isLt
    | ⟨5, _⟩ => cntAt m c t.val t.isLt
  Φ t := PhiAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiAt m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = totAt m c t.val t.isLt := by dsimp only [dats]
theorem after_5 (c : Dev nD) (t : Fin cfg0.N) : (dats m 0 c).after 5 t = cntAt m c t.val t.isLt := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The outputs' staging buffers before the body -/

/-- `before` at a later point of a window not fetched there, with the point before written as n. -/
theorem before_succ (c : Dev nD) (w : Fin cfg0.W) (n : ℕ) (h : n + 1 < cfg0.N) (hf : (cfg0.win w).fetch ⟨n + 1, h⟩ = false)
    (d : (cfg0.win w).block.Idx → Elt F (cfg0.win w).elt) :
    (dats m 0 c).before w ⟨n + 1, h⟩ d
      = if (cfg0.win w).flush ⟨n, Nat.lt_of_succ_lt h⟩ then d else (dats m 0 c).left w ⟨n, Nat.lt_of_succ_lt h⟩ d :=
  (dats m 0 c).before_of_pos w ⟨n + 1, h⟩ (Nat.succ_ne_zero n) hf d

theorem idle_4_false (t : Fin cfg0.N) (h : t.val = 0 ∨ t.val % 8 = 7) : cfg0.idle 4 (cfg0.grid.coords t) = false := by
  rw [show cfg0.grid.coords t = grid0.coords t from rfl, idle_4 t]; rcases h with h | h <;> simp [h]
theorem idle_4_true (t : Fin cfg0.N) (h0 : t.val ≠ 0) (h7 : ¬t.val % 8 = 7) : cfg0.idle 4 (cfg0.grid.coords t) = true := by
  rw [show cfg0.grid.coords t = grid0.coords t from rfl, idle_4 t]; simp [h0, h7]
theorem idle_5_false (t : Fin cfg0.N) (h : t.val = 0 ∨ t.val % 8 = 7) : cfg0.idle 5 (cfg0.grid.coords t) = false := by
  rw [show cfg0.grid.coords t = grid0.coords t from rfl, idle_5 t]; rcases h with h | h <;> simp [h]
theorem idle_5_true (t : Fin cfg0.N) (h0 : t.val ≠ 0) (h7 : ¬t.val % 8 = 7) : cfg0.idle 5 (cfg0.grid.coords t) = true := by
  rw [show cfg0.grid.coords t = grid0.coords t from rfl, idle_5 t]; simp [h0, h7]

theorem noflush_4 (t : Fin cfg0.N) (h : t.val ≠ 63) : (cfg0.win 4).flush t = false := by
  have hN : t.val < 64 := lt_of_lt_of_eq t.isLt N_eq
  rw [Bool.eq_false_iff]; intro hf; have := (flush0_4 t).mp hf; omega
theorem noflush_5 (t : Fin cfg0.N) (h : t.val ≠ 63) : (cfg0.win 5).flush t = false := by
  have hN : t.val < 64 := lt_of_lt_of_eq t.isLt N_eq
  rw [Bool.eq_false_iff]; intro hf; have := (flush0_5 t).mp hf; omega

/-- The total's buffer, at any point after the first, holds the running total of the point before: what the
    last live point left, unchanged through the idle points since. -/
theorem before_4 (c : Dev nD) : ∀ (n : ℕ) (h : n + 1 < cfg0.N) (d : (cfg0.win 4).block.Idx → Elt F (cfg0.win 4).elt),
    (dats m 0 c).before 4 ⟨n + 1, h⟩ d = totAt m c n (Nat.lt_of_succ_lt h)
  | n, h, d => by
    have hN : n + 1 < 64 := lt_of_lt_of_eq h N_eq
    rw [before_succ m c 4 n h ((cfg0.win 4).fetch_out rfl _) d, noflush_4 ⟨n, Nat.lt_of_succ_lt h⟩ (by show n ≠ 63; omega),
      if_neg Bool.false_ne_true]
    unfold Dat.left
    by_cases hl : n = 0 ∨ n % 8 = 7
    · rw [idle_4_false ⟨n, Nat.lt_of_succ_lt h⟩ hl]
      dsimp only
      unfold Dat.kept
      rw [Pipeline.fill_of_clip_none 4 _ (fun _ => rfl) d ((dats m 0 c).after 4 ⟨n, Nat.lt_of_succ_lt h⟩), Window.fill_cut, after_4]
    · have h0 : n ≠ 0 := fun e => hl (.inl e)
      have h7 : ¬n % 8 = 7 := fun e => hl (.inr e)
      rw [idle_4_true ⟨n, Nat.lt_of_succ_lt h⟩ h0 h7]
      dsimp only
      obtain ⟨k, rfl⟩ := Nat.exists_eq_succ_of_ne_zero h0
      rw [before_4 c k (Nat.lt_of_succ_lt h) d]
      exact (totAt_keep m c ⟨k + 1, Nat.lt_of_succ_lt h⟩ (Nat.succ_ne_zero k) h7).symm

/-- The count's buffer likewise. -/
theorem before_5 (c : Dev nD) : ∀ (n : ℕ) (h : n + 1 < cfg0.N) (d : (cfg0.win 5).block.Idx → Elt F (cfg0.win 5).elt),
    (dats m 0 c).before 5 ⟨n + 1, h⟩ d = cntAt m c n (Nat.lt_of_succ_lt h)
  | n, h, d => by
    have hN : n + 1 < 64 := lt_of_lt_of_eq h N_eq
    rw [before_succ m c 5 n h ((cfg0.win 5).fetch_out rfl _) d, noflush_5 ⟨n, Nat.lt_of_succ_lt h⟩ (by show n ≠ 63; omega),
      if_neg Bool.false_ne_true]
    unfold Dat.left
    by_cases hl : n = 0 ∨ n % 8 = 7
    · rw [idle_5_false ⟨n, Nat.lt_of_succ_lt h⟩ hl]
      dsimp only
      unfold Dat.kept
      rw [Pipeline.fill_of_clip_none 5 _ (fun _ => rfl) d ((dats m 0 c).after 5 ⟨n, Nat.lt_of_succ_lt h⟩), Window.fill_cut, after_5]
    · have h0 : n ≠ 0 := fun e => hl (.inl e)
      have h7 : ¬n % 8 = 7 := fun e => hl (.inr e)
      rw [idle_5_true ⟨n, Nat.lt_of_succ_lt h⟩ h0 h7]
      dsimp only
      obtain ⟨k, rfl⟩ := Nat.exists_eq_succ_of_ne_zero h0
      rw [before_5 c k (Nat.lt_of_succ_lt h) d]
      exact (cntAt_keep m c ⟨k + 1, Nat.lt_of_succ_lt h⟩ (Nat.succ_ne_zero k) h7).symm

/-- At the first point an output's buffer holds anything. -/
theorem before_4_zero (c : Dev nD) (t : Fin cfg0.N) (h : t.val = 0) (d) : (dats m 0 c).before 4 t d = d :=
  (dats m 0 c).before_out_reset 4 rfl t (.inl h) d
theorem before_5_zero (c : Dev nD) (t : Fin cfg0.N) (h : t.val = 0) (d) : (dats m 0 c).before 5 t d = d :=
  (dats m 0 c).before_out_reset 5 rfl t (.inl h) d

/-- The same at a point t ≠ 0, stated at t. -/
theorem before_4_pos (c : Dev nD) (t : Fin cfg0.N) (h : t.val ≠ 0) (d) :
    (dats m 0 c).before 4 t d = totAt m c (t.val - 1) (Nat.lt_of_le_of_lt (Nat.sub_le _ _) t.isLt) := by
  obtain ⟨n, hn⟩ := t
  cases n with
  | zero => exact absurd rfl h
  | succ n => exact before_4 m c n hn d
theorem before_5_pos (c : Dev nD) (t : Fin cfg0.N) (h : t.val ≠ 0) (d) :
    (dats m 0 c).before 5 t d = cntAt m c (t.val - 1) (Nat.lt_of_le_of_lt (Nat.sub_le _ _) t.isLt) := by
  obtain ⟨n, hn⟩ := t
  cases n with
  | zero => exact absurd rfl h
  | succ n => exact before_5 m c n hn d

end Cert.KernelIdeal.Body

end
-- ==== Proof.KI.RunFirst.lean ====
/-
  The kernel body at the grid's first point (t = 0): both resets are taken, the masked reduction is not.
  The run is stated on whole memrefs at named contents and hands every buffer the body stores into back
  with its stores written, last first; the lists of stores are found by the run itself.
-/
import proofs.«155107_j85701777424698_1_alg».proof.Proof.KI.Shared
import Idealize.ShloMosaic.Lib.Tactic
import proofs.«155107_j85701777424698_1_alg».proof.Proof.LibStoreRead

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : resetOut i) (hc1 : resetAcc i) (hc2 : ¬lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32) :
    { L : List (View.Piece (Elt F) S1x1 .f32) × List (View.Piece (Elt F) S1x1 .f32) × List (View.Piece (Elt F) S256x4096 .f32) × List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (arg6.view.loc (c : Thread nD τ) ↦[arg6.view.set]{fullShare} arg6.view.writes (Elt F) (harg6.unread o4) L.1) ∗ (arg7.view.loc (c : Thread nD τ) ↦[arg7.view.set]{fullShare} arg7.view.writes (Elt F) (harg7.unread o5) L.2.1)
                ∗ (arg8.view.loc (c : Thread nD τ) ↦[arg8.view.set]{fullShare} arg8.view.writes (Elt F) (harg8.unread s8) L.2.2.1) ∗ (arg9.view.loc (c : Thread nD τ) ↦[arg9.view.set]{fullShare} arg9.view.writes (Elt F) (harg9.unread s9) L.2.2.2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨(?_, ?_, ?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf8; obtain rfl := harg9.eq_unread hf9
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H8]; · iexact H8
    iexact H9

section
variable (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : resetOut i) (hc1 : resetAcc i) (hc2 : ¬lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32)

/-- The squares scratch after the run: the slab store over what it held. -/
theorem first_sq : arg9.view.read (Elt F) (arg9.view.writes (Elt F) (harg9.unread s9) (runFirst c i arg2 harg2 arg3 harg3 arg4 harg4 arg5 harg5 arg6 harg6 arg7 harg7 arg8 harg8 arg9 harg9 hc0 hc1 hc2 x0 x1 x2 x3 o4 o5 s8 s9).1.2.2.2) = sqAfter i s9 x1 x0 := by
  unfold runFirst; dsimp only; sl_unfold_run_names
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The accumulator after the run. -/
theorem first_acc : arg8.view.read (Elt F) (arg8.view.writes (Elt F) (harg8.unread s8) (runFirst c i arg2 harg2 arg3 harg3 arg4 harg4 arg5 harg5 arg6 harg6 arg7 harg7 arg8 harg8 arg9 harg9 hc0 hc1 hc2 x0 x1 x2 x3 o4 o5 s8 s9).1.2.2.1) = k0_pay6 x1 x0 x2 (k0_pay3 (F := F)) := by
  unfold runFirst; dsimp only; sl_unfold_run_names
  rw [StoreRead.read_writes_full_cons _ _ hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The total's staging buffer after the run: the reset's zero. -/
theorem first_tot : arg6.view.read (Elt F) (arg6.view.writes (Elt F) (harg6.unread o4) (runFirst c i arg2 harg2 arg3 harg3 arg4 harg4 arg5 harg5 arg6 harg6 arg7 harg7 arg8 harg8 arg9 harg9 hc0 hc1 hc2 x0 x1 x2 x3 o4 o5 s8 s9).1.1) = (k0_pay1 (F := F)) := by
  unfold runFirst; dsimp only; sl_unfold_run_names
  rw [StoreRead.read_writes_full_cons _ _ hz]

/-- The count's staging buffer after the run: the reset's zero. -/
theorem first_cnt : arg7.view.read (Elt F) (arg7.view.writes (Elt F) (harg7.unread o5) (runFirst c i arg2 harg2 arg3 harg3 arg4 harg4 arg5 harg5 arg6 harg6 arg7 harg7 arg8 harg8 arg9 harg9 hc0 hc1 hc2 x0 x1 x2 x3 o4 o5 s8 s9).1.2.1) = (k0_pay2 (F := F)) := by
  unfold runFirst; dsimp only; sl_unfold_run_names
  rw [StoreRead.read_writes_full_cons _ _ hz]

include hc0 hc1 hc2 in
/-- THE BODY AT t = 0, on named contents: the inputs are kept; both outputs are reset to zero, the accumulator to
    zero plus the first slab's product, and the squares scratch takes the first slab. -/
theorem tripleFirst (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay1 (F := F)) ∗ owns (c : Thread nD τ) arg7 fullShare (k0_pay2 (F := F))
            ∗ owns (c : Thread nD τ) arg8 fullShare (k0_pay6 x1 x0 x2 (k0_pay3 (F := F))) ∗ owns (c : Thread nD τ) arg9 fullShare (sqAfter i s9 x1 x0)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  iintro ⟨H0, H1, H2, H3, H4, H5, H8, H9, Hk⟩
  iapply (runFirst c i arg2 harg2 arg3 harg3 arg4 harg4 arg5 harg5 arg6 harg6 arg7 harg7 arg8 harg8 arg9 harg9 hc0 hc1 hc2 x0 x1 x2 x3 o4 o5 s8 s9).2 E K
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  iapply Hk
  isplitl [H0]; · iexact H0
  isplitl [H1]; · iexact H1
  isplitl [H2]; · iexact H2
  isplitl [H3]; · iexact H3
  isplitl [H4]
  · unfold owns; iexists _; isplitr; swap; · iexact H4
    ipureintro; exact first_tot c i arg2 harg2 arg3 harg3 arg4 harg4 arg5 harg5 arg6 harg6 arg7 harg7 arg8 harg8 arg9 harg9 hc0 hc1 hc2 x0 x1 x2 x3 o4 o5 s8 s9
  isplitl [H5]
  · unfold owns; iexists _; isplitr; swap; · iexact H5
    ipureintro; exact first_cnt c i arg2 harg2 arg3 harg3 arg4 harg4 arg5 harg5 arg6 harg6 arg7 harg7 arg8 harg8 arg9 harg9 hc0 hc1 hc2 x0 x1 x2 x3 o4 o5 s8 s9
  isplitl [H8]
  · unfold owns; iexists _; isplitr; swap; · iexact H8
    ipureintro; exact first_acc c i arg2 harg2 arg3 harg3 arg4 harg4 arg5 harg5 arg6 harg6 arg7 harg7 arg8 harg8 arg9 harg9 hc0 hc1 hc2 x0 x1 x2 x3 o4 o5 s8 s9
  unfold owns; iexists _; isplitr; swap; · iexact H9
  ipureintro; exact first_sq c i arg2 harg2 arg3 harg3 arg4 harg4 arg5 harg5 arg6 harg6 arg7 harg7 arg8 harg8 arg9 harg9 hc0 hc1 hc2 x0 x1 x2 x3 o4 o5 s8 s9
end

end Cert.KernelIdeal.Body

end
-- ==== Proof.KI.RunTile.lean ====
/-
  The kernel body at the first column slab of a later row tile (k = 0, t ≠ 0): the accumulator's reset is
  taken, the outputs' reset and the masked reduction are not; the outputs' staging buffers are not touched.
  The run is stated on whole memrefs at named contents; the lists of stores are found by the run itself.
-/
import proofs.«155107_j85701777424698_1_alg».proof.Proof.KI.Shared
import Idealize.ShloMosaic.Lib.Tactic
import proofs.«155107_j85701777424698_1_alg».proof.Proof.LibStoreRead

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runTile (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : ¬resetOut i) (hc1 : resetAcc i) (hc2 : ¬lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32) :
    { L : List (View.Piece (Elt F) S256x4096 .f32) × List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare o4 ∗ owns (c : Thread nD τ) arg7 fullShare o5
                ∗ (arg8.view.loc (c : Thread nD τ) ↦[arg8.view.set]{fullShare} arg8.view.writes (Elt F) (harg8.unread s8) L.1) ∗ (arg9.view.loc (c : Thread nD τ) ↦[arg9.view.set]{fullShare} arg9.view.writes (Elt F) (harg9.unread s9) L.2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨(?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf8; obtain rfl := harg9.eq_unread hf9
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexact H8
    iexact H9

section
variable (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : ¬resetOut i) (hc1 : resetAcc i) (hc2 : ¬lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32)

/-- The squares scratch after the run: the slab store over what it held. -/
theorem tile_sq : arg9.view.read (Elt F) (arg9.view.writes (Elt F) (harg9.unread s9) (runTile c i arg2 harg2 arg3 harg3 arg4 harg4 arg5 harg5 arg6 harg6 arg7 harg7 arg8 harg8 arg9 harg9 hc0 hc1 hc2 x0 x1 x2 x3 o4 o5 s8 s9).1.2) = sqAfter i s9 x1 x0 := by
  unfold runTile; dsimp only; sl_unfold_run_names
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The accumulator after the run. -/
theorem tile_acc : arg8.view.read (Elt F) (arg8.view.writes (Elt F) (harg8.unread s8) (runTile c i arg2 harg2 arg3 harg3 arg4 harg4 arg5 harg5 arg6 harg6 arg7 harg7 arg8 harg8 arg9 harg9 hc0 hc1 hc2 x0 x1 x2 x3 o4 o5 s8 s9).1.1) = k0_pay6 x1 x0 x2 (k0_pay3 (F := F)) := by
  unfold runTile; dsimp only; sl_unfold_run_names
  rw [StoreRead.read_writes_full_cons _ _ hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

include hc0 hc1 hc2 in
/-- THE BODY AT k = 0 of a later tile, on named contents: the inputs and both outputs are kept; the accumulator is
    reset to zero plus the slab's product, and the squares scratch takes the slab. -/
theorem tripleTile (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare o4 ∗ owns (c : Thread nD τ) arg7 fullShare o5
            ∗ owns (c : Thread nD τ) arg8 fullShare (k0_pay6 x1 x0 x2 (k0_pay3 (F := F))) ∗ owns (c : Thread nD τ) arg9 fullShare (sqAfter i s9 x1 x0)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  iintro ⟨H0, H1, H2, H3, H4, H5, H8, H9, Hk⟩
  iapply (runTile c i arg2 harg2 arg3 harg3 arg4 harg4 arg5 harg5 arg6 harg6 arg7 harg7 arg8 harg8 arg9 harg9 hc0 hc1 hc2 x0 x1 x2 x3 o4 o5 s8 s9).2 E K
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  iapply Hk
  isplitl [H0]; · iexact H0
  isplitl [H1]; · iexact H1
  isplitl [H2]; · iexact H2
  isplitl [H3]; · iexact H3
  isplitl [H4]; · iexact H4
  isplitl [H5]; · iexact H5
  isplitl [H8]
  · unfold owns; iexists _; isplitr; swap; · iexact H8
    ipureintro; exact tile_acc c i arg2 harg2 arg3 harg3 arg4 harg4 arg5 harg5 arg6 harg6 arg7 harg7 arg8 harg8 arg9 harg9 hc0 hc1 hc2 x0 x1 x2 x3 o4 o5 s8 s9
  unfold owns; iexists _; isplitr; swap; · iexact H9
  ipureintro; exact tile_sq c i arg2 harg2 arg3 harg3 arg4 harg4 arg5 harg5 arg6 harg6 arg7 harg7 arg8 harg8 arg9 harg9 hc0 hc1 hc2 x0 x1 x2 x3 o4 o5 s8 s9
end

end Cert.KernelIdeal.Body

end
-- ==== Proof.KI.RunMid.lean ====
/-
  The kernel body at an inner column slab (k = 1 … 6): no branch is taken; the outputs' staging buffers are
  not touched. The run is stated on whole memrefs at named contents; the lists of stores are found by the
  run itself.
-/
import proofs.«155107_j85701777424698_1_alg».proof.Proof.KI.Shared
import Idealize.ShloMosaic.Lib.Tactic
import proofs.«155107_j85701777424698_1_alg».proof.Proof.LibStoreRead

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : ¬resetOut i) (hc1 : ¬resetAcc i) (hc2 : ¬lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32) :
    { L : List (View.Piece (Elt F) S256x4096 .f32) × List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare o4 ∗ owns (c : Thread nD τ) arg7 fullShare o5
                ∗ (arg8.view.loc (c : Thread nD τ) ↦[arg8.view.set]{fullShare} arg8.view.writes (Elt F) (harg8.unread s8) L.1) ∗ (arg9.view.loc (c : Thread nD τ) ↦[arg9.view.set]{fullShare} arg9.view.writes (Elt F) (harg9.unread s9) L.2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨(?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf8; obtain rfl := harg9.eq_unread hf9
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexact H8
    iexact H9

section
variable (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : ¬resetOut i) (hc1 : ¬resetAcc i) (hc2 : ¬lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32)

/-- The squares scratch after the run: the slab store over what it held. -/
theorem mid_sq : arg9.view.read (Elt F) (arg9.view.writes (Elt F) (harg9.unread s9) (runMid c i arg2 harg2 arg3 harg3 arg4 harg4 arg5 harg5 arg6 harg6 arg7 harg7 arg8 harg8 arg9 harg9 hc0 hc1 hc2 x0 x1 x2 x3 o4 o5 s8 s9).1.2) = sqAfter i s9 x1 x0 := by
  unfold runMid; dsimp only; sl_unfold_run_names
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The accumulator after the run. -/
theorem mid_acc : arg8.view.read (Elt F) (arg8.view.writes (Elt F) (harg8.unread s8) (runMid c i arg2 harg2 arg3 harg3 arg4 harg4 arg5 harg5 arg6 harg6 arg7 harg7 arg8 harg8 arg9 harg9 hc0 hc1 hc2 x0 x1 x2 x3 o4 o5 s8 s9).1.1) = k0_pay6 x1 x0 x2 s8 := by
  unfold runMid; dsimp only; sl_unfold_run_names
  rw [StoreRead.read_writes_full_cons _ _ hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

include hc0 hc1 hc2 in
/-- THE BODY AT k = 1 … 6, on named contents: the inputs and both outputs are kept; the accumulator takes the slab's
    product on top of what it held, and the squares scratch takes the slab. -/
theorem tripleMid (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare o4 ∗ owns (c : Thread nD τ) arg7 fullShare o5
            ∗ owns (c : Thread nD τ) arg8 fullShare (k0_pay6 x1 x0 x2 s8) ∗ owns (c : Thread nD τ) arg9 fullShare (sqAfter i s9 x1 x0)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  iintro ⟨H0, H1, H2, H3, H4, H5, H8, H9, Hk⟩
  iapply (runMid c i arg2 harg2 arg3 harg3 arg4 harg4 arg5 harg5 arg6 harg6 arg7 harg7 arg8 harg8 arg9 harg9 hc0 hc1 hc2 x0 x1 x2 x3 o4 o5 s8 s9).2 E K
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  iapply Hk
  isplitl [H0]; · iexact H0
  isplitl [H1]; · iexact H1
  isplitl [H2]; · iexact H2
  isplitl [H3]; · iexact H3
  isplitl [H4]; · iexact H4
  isplitl [H5]; · iexact H5
  isplitl [H8]
  · unfold owns; iexists _; isplitr; swap; · iexact H8
    ipureintro; exact mid_acc c i arg2 harg2 arg3 harg3 arg4 harg4 arg5 harg5 arg6 harg6 arg7 harg7 arg8 harg8 arg9 harg9 hc0 hc1 hc2 x0 x1 x2 x3 o4 o5 s8 s9
  unfold owns; iexists _; isplitr; swap; · iexact H9
  ipureintro; exact mid_sq c i arg2 harg2 arg3 harg3 arg4 harg4 arg5 harg5 arg6 harg6 arg7 harg7 arg8 harg8 arg9 harg9 hc0 hc1 hc2 x0 x1 x2 x3 o4 o5 s8 s9
end

end Cert.KernelIdeal.Body

end
-- ==== Proof.KI.RunLast.lean ====
/-
  The kernel body at a point with k = 7 (and t ≠ 0): neither reset is taken, the masked reduction is.
  The run is stated on whole memrefs at named contents and hands every buffer the body stores into back
  with its stores written, last first; the lists of stores are found by the run itself.
-/
import proofs.«155107_j85701777424698_1_alg».proof.Proof.KI.Shared
import Idealize.ShloMosaic.Lib.Tactic
import proofs.«155107_j85701777424698_1_alg».proof.Proof.LibStoreRead

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : ¬resetOut i) (hc1 : ¬resetAcc i) (hc2 : lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32) :
    { L : List (View.Piece (Elt F) S1x1 .f32) × List (View.Piece (Elt F) S1x1 .f32) × List (View.Piece (Elt F) S256x4096 .f32) × List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (arg6.view.loc (c : Thread nD τ) ↦[arg6.view.set]{fullShare} arg6.view.writes (Elt F) (harg6.unread o4) L.1) ∗ (arg7.view.loc (c : Thread nD τ) ↦[arg7.view.set]{fullShare} arg7.view.writes (Elt F) (harg7.unread o5) L.2.1)
                ∗ (arg8.view.loc (c : Thread nD τ) ↦[arg8.view.set]{fullShare} arg8.view.writes (Elt F) (harg8.unread s8) L.2.2.1) ∗ (arg9.view.loc (c : Thread nD τ) ↦[arg9.view.set]{fullShare} arg9.view.writes (Elt F) (harg9.unread s9) L.2.2.2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨(?_, ?_, ?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf8; obtain rfl := harg9.eq_unread hf9
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    isplitl [H5]; · iexact H5
    isplitl [H8]; · iexact H8
    iexact H9

section
variable (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S4096x512 .bf16) (harg4 : arg4.IsWhole) (arg5 : Memref sig .tc .vmem S256x4096 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S256x4096 .f32) (harg8 : arg8.IsWhole) (arg9 : Memref sig .tc .vmem S256x4096 .f32) (harg9 : arg9.IsWhole) (hc0 : ¬resetOut i) (hc1 : ¬resetAcc i) (hc2 : lastSlab i)
    (x0 : Vec F S256x512 .f32) (x1 : Vec F S256x512 .f32) (x2 : Vec F S4096x512 .bf16) (x3 : Vec F S256x4096 .i32)
    (o4 o5 : Vec F S1x1 .f32) (s8 s9 : Vec F S256x4096 .f32)

/-- The squares scratch after the run: the slab store over what it held. -/
theorem last_sq : arg9.view.read (Elt F) (arg9.view.writes (Elt F) (harg9.unread s9) (runLast c i arg2 harg2 arg3 harg3 arg4 harg4 arg5 harg5 arg6 harg6 arg7 harg7 arg8 harg8 arg9 harg9 hc0 hc1 hc2 x0 x1 x2 x3 o4 o5 s8 s9).1.2.2.2) = sqAfter i s9 x1 x0 := by
  unfold runLast; dsimp only; sl_unfold_run_names
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The accumulator after the run: what it held plus the slab's product. -/
theorem last_acc : arg8.view.read (Elt F) (arg8.view.writes (Elt F) (harg8.unread s8) (runLast c i arg2 harg2 arg3 harg3 arg4 harg4 arg5 harg5 arg6 harg6 arg7 harg7 arg8 harg8 arg9 harg9 hc0 hc1 hc2 x0 x1 x2 x3 o4 o5 s8 s9).1.2.2.1) = k0_pay6 x1 x0 x2 s8 := by
  unfold runLast; dsimp only; sl_unfold_run_names
  rw [StoreRead.read_writes_full _ _ hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The masked total after the run: what the output held plus the tile's masked sum of squares + products. -/
theorem last_tot : arg6.view.read (Elt F) (arg6.view.writes (Elt F) (harg6.unread o4) (runLast c i arg2 harg2 arg3 harg3 arg4 harg4 arg5 harg5 arg6 harg6 arg7 harg7 arg8 harg8 arg9 harg9 hc0 hc1 hc2 x0 x1 x2 x3 o4 o5 s8 s9).1.1) = k0_pay8 (sqAfter i s9 x1 x0) (k0_pay6 x1 x0 x2 s8) x3 o4 := by
  unfold runLast; dsimp only; sl_unfold_run_names
  rw [StoreRead.read_writes_full _ _ hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

/-- The mask count after the run: what the output held plus the tile's count. -/
theorem last_cnt : arg7.view.read (Elt F) (arg7.view.writes (Elt F) (harg7.unread o5) (runLast c i arg2 harg2 arg3 harg3 arg4 harg4 arg5 harg5 arg6 harg6 arg7 harg7 arg8 harg8 arg9 harg9 hc0 hc1 hc2 x0 x1 x2 x3 o4 o5 s8 s9).1.2.1) = k0_pay9 x3 o5 := by
  unfold runLast; dsimp only; sl_unfold_run_names
  rw [StoreRead.read_writes_full _ _ hz]
  simp only [View.readAt_eq_ld, harg2.read_unread, harg3.read_unread, harg4.read_unread, harg5.read_unread, harg6.read_unread, harg7.read_unread, harg8.read_unread, harg9.read_unread, View.ld_unit_zero (S := S256x512) hz, View.ld_unit_zero (S := S4096x512) hz, View.ld_unit_zero (S := S256x4096) hz, View.ld_unit_zero (S := S1x1) hz, View.readCov_unit_zero (S := S256x4096) _ hz, View.readCov_unit_zero (S := S1x1) _ hz, StoreRead.read_writes_one]

include hc0 hc1 hc2 in
/-- THE BODY AT k = 7, on named contents: the inputs are kept; the squares scratch takes the slab, the accumulator the
    slab's product, and the two outputs the tile's masked total and mask count. -/
theorem tripleLast (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o4 ∗ owns (c : Thread nD τ) arg7 fullShare o5 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay8 (sqAfter i s9 x1 x0) (k0_pay6 x1 x0 x2 s8) x3 o4) ∗ owns (c : Thread nD τ) arg7 fullShare (k0_pay9 x3 o5)
            ∗ owns (c : Thread nD τ) arg8 fullShare (k0_pay6 x1 x0 x2 s8) ∗ owns (c : Thread nD τ) arg9 fullShare (sqAfter i s9 x1 x0)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  iintro ⟨H0, H1, H2, H3, H4, H5, H8, H9, Hk⟩
  iapply (runLast c i arg2 harg2 arg3 harg3 arg4 harg4 arg5 harg5 arg6 harg6 arg7 harg7 arg8 harg8 arg9 harg9 hc0 hc1 hc2 x0 x1 x2 x3 o4 o5 s8 s9).2 E K
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  iapply Hk
  isplitl [H0]; · iexact H0
  isplitl [H1]; · iexact H1
  isplitl [H2]; · iexact H2
  isplitl [H3]; · iexact H3
  isplitl [H4]
  · unfold owns; iexists _; isplitr; swap; · iexact H4
    ipureintro; exact last_tot c i arg2 harg2 arg3 harg3 arg4 harg4 arg5 harg5 arg6 harg6 arg7 harg7 arg8 harg8 arg9 harg9 hc0 hc1 hc2 x0 x1 x2 x3 o4 o5 s8 s9
  isplitl [H5]
  · unfold owns; iexists _; isplitr; swap; · iexact H5
    ipureintro; exact last_cnt c i arg2 harg2 arg3 harg3 arg4 harg4 arg5 harg5 arg6 harg6 arg7 harg7 arg8 harg8 arg9 harg9 hc0 hc1 hc2 x0 x1 x2 x3 o4 o5 s8 s9
  isplitl [H8]
  · unfold owns; iexists _; isplitr; swap; · iexact H8
    ipureintro; exact last_acc c i arg2 harg2 arg3 harg3 arg4 harg4 arg5 harg5 arg6 harg6 arg7 harg7 arg8 harg8 arg9 harg9 hc0 hc1 hc2 x0 x1 x2 x3 o4 o5 s8 s9
  unfold owns; iexists _; isplitr; swap; · iexact H9
  ipureintro; exact last_sq c i arg2 harg2 arg3 harg3 arg4 harg4 arg5 harg5 arg6 harg6 arg7 harg7 arg8 harg8 arg9 harg9 hc0 hc1 hc2 x0 x1 x2 x3 o4 o5 s8 s9
end

end Cert.KernelIdeal.Body

end
-- ==== Proof.KI.Body.lean ====
/-
  The body obligation of the kernel's pipeline and its frame run, at any float instance. At each grid point the
  body finds the inputs' blocks, the outputs' running values and the invariant's two scratch buffers; which of
  its three branches run is decided by the point (t = 0; k = 0; k = 7; else), and in each case the body's run
  on named contents (the four run modules) turns what it finds into the next point's values: the accumulator
  by its recursion, the squares scratch by the slab store, the outputs by the reset, the tile's update, or —
  where their windows are idle — not at all.
-/
import proofs.«155107_j85701777424698_1_alg».proof.Proof.KI.Data
import proofs.«155107_j85701777424698_1_alg».proof.Proof.KI.RunFirst
import proofs.«155107_j85701777424698_1_alg».proof.Proof.KI.RunTile
import proofs.«155107_j85701777424698_1_alg».proof.Proof.KI.RunMid
import proofs.«155107_j85701777424698_1_alg».proof.Proof.KI.RunLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mY t) fullShare ((dats m 0 c).before 1 t d))
    ∗ (∃ d, owns (c : Thread nD τ) (mA t) fullShare ((dats m 0 c).before 2 t d))
    ∗ (∃ d, owns (c : Thread nD τ) (mM t) fullShare ((dats m 0 c).before 3 t d))
    ∗ (∃ d, owns (c : Thread nD τ) (mT t) fullShare ((dats m 0 c).before 4 t d))
    ∗ (∃ d, owns (c : Thread nD τ) (mC t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiAt m c (t.val + 1) t.isLt from rfl, PhiAt_succ]
  have hN : t.val < 64 := lt_of_lt_of_eq t.isLt N_eq
  by_cases hz : t.val = 0
  · -- the first point: both resets are taken
    have h8 : t.val % 8 = 0 := by omega
    rw [show (dats m 0 c).leavesExact 0 t = owns (c : Thread nD τ) (mX t) fullShare ((dats m 0 c).after 0 t) from by
      unfold Dat.leavesExact; rw [live_0 t], after_0]
    rw [show (dats m 0 c).leavesExact 1 t = owns (c : Thread nD τ) (mY t) fullShare ((dats m 0 c).after 1 t) from by
      unfold Dat.leavesExact; rw [live_1 t], after_1]
    rw [show (dats m 0 c).leavesExact 2 t = owns (c : Thread nD τ) (mA t) fullShare ((dats m 0 c).after 2 t) from by
      unfold Dat.leavesExact; rw [live_2 t], after_2]
    rw [show (dats m 0 c).leavesExact 3 t = owns (c : Thread nD τ) (mM t) fullShare ((dats m 0 c).after 3 t) from by
      unfold Dat.leavesExact; rw [live_3 t], after_3]
    rw [show (dats m 0 c).leavesExact 4 t = owns (c : Thread nD τ) (mT t) fullShare ((dats m 0 c).after 4 t) from by
      unfold Dat.leavesExact; rw [idle_4_false t (.inl hz)], after_4]
    rw [show (dats m 0 c).leavesExact 5 t = owns (c : Thread nD τ) (mC t) fullShare ((dats m 0 c).after 5 t) from by
      unfold Dat.leavesExact; rw [idle_5_false t (.inl hz)], after_5]
    rw [totAt_zero m c t hz, cntAt_zero m c t hz, accAt_reset m c t h8]
    simp only [before_4_zero m c t hz, before_5_zero m c t hz]
    rw [Phi_castSucc m c t, PhiAt_zero m c _ _ hz, PhiA_eq]
    iintro ⟨⟨⟨⟨%s8, HS0⟩, ⟨%s9, HS1⟩⟩, Hg⟩, Ho, ⟨%d0, H0⟩, ⟨%d1, H1⟩, ⟨%d2, H2⟩, ⟨%d3, H3⟩, ⟨%o4, H4⟩, ⟨%o5, H5⟩⟩
    iapply (tripleFirst c (grid0.coords t) (mX t) (hX t) (mY t) (hY t) (mA t) (hA t) (mM t) (hM t) (mT t) (hT t) (mC t) (hC t) mAcc hAcc mSq hSq
      ((resetOut_iff t).mpr hz) ((resetAcc_iff t).mpr h8) (fun h => by have := (lastSlab_iff t).mp h; omega)
      (iblk m c 0 t) (iblk m c 1 t) (iblk m c 2 t) (iblk m c 3 t) o4 o5 s8 s9 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexists _; isplitr; swap; · iexact HS1
        ipureintro; exact SqOK_store m c t s9 (.inl h8)
      iexact Hg
    isplitl [Ho]; · iexact Ho
    isplitl [H0]; · iexact H0
    isplitl [H1]; · iexact H1
    isplitl [H2]; · iexact H2
    isplitl [H3]; · iexact H3
    isplitl [H4]; · iexact H4
    iexact H5
  rw [Phi_castSucc m c t, PhiAt_pos m c _ _ hz]
  by_cases h8 : t.val % 8 = 0
  · -- the first slab of a later tile: the accumulator's reset; the outputs' windows are idle
    have h7' : ¬t.val % 8 = 7 := by omega
    rw [show (dats m 0 c).leavesExact 0 t = owns (c : Thread nD τ) (mX t) fullShare ((dats m 0 c).after 0 t) from by
      unfold Dat.leavesExact; rw [live_0 t], after_0]
    rw [show (dats m 0 c).leavesExact 1 t = owns (c : Thread nD τ) (mY t) fullShare ((dats m 0 c).after 1 t) from by
      unfold Dat.leavesExact; rw [live_1 t], after_1]
    rw [show (dats m 0 c).leavesExact 2 t = owns (c : Thread nD τ) (mA t) fullShare ((dats m 0 c).after 2 t) from by
      unfold Dat.leavesExact; rw [live_2 t], after_2]
    rw [show (dats m 0 c).leavesExact 3 t = owns (c : Thread nD τ) (mM t) fullShare ((dats m 0 c).after 3 t) from by
      unfold Dat.leavesExact; rw [live_3 t], after_3]
    rw [(dats m 0 c).leavesExact_idle 4 t (idle_4_true t hz h7') (noflush_4 t (by omega))]
    rw [(dats m 0 c).leavesExact_idle 5 t (idle_5_true t hz h7') (noflush_5 t (by omega))]
    rw [accAt_reset m c t h8]
    simp only [before_4_pos m c t hz, before_5_pos m c t hz]
    iintro ⟨⟨⟨HS0, ⟨%s9, %hs9, HS1⟩⟩, Hg⟩, Ho, ⟨%d0, H0⟩, ⟨%d1, H1⟩, ⟨%d2, H2⟩, ⟨%d3, H3⟩, ⟨%d4, H4⟩, ⟨%d5, H5⟩⟩
    iapply (tripleTile c (grid0.coords t) (mX t) (hX t) (mY t) (hY t) (mA t) (hA t) (mM t) (hM t) (mT t) (hT t) (mC t) (hC t) mAcc hAcc mSq hSq
      (fun h => hz ((resetOut_iff t).mp h)) ((resetAcc_iff t).mpr h8) (fun h => h7' ((lastSlab_iff t).mp h))
      (iblk m c 0 t) (iblk m c 1 t) (iblk m c 2 t) (iblk m c 3 t) _ _ _ s9 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexists _; isplitr; swap; · iexact HS1
        ipureintro; exact SqOK_store m c t s9 (.inl h8)
      iexact Hg
    isplitl [Ho]; · iexact Ho
    isplitl [H0]; · iexact H0
    isplitl [H1]; · iexact H1
    isplitl [H2]; · iexact H2
    isplitl [H3]; · iexact H3
    isplitl [H4]; · iexists d4; iexact H4
    iexists d5; iexact H5
  by_cases h7 : t.val % 8 = 7
  · -- the last slab of a tile: the masked reduction
    rw [show (dats m 0 c).leavesExact 0 t = owns (c : Thread nD τ) (mX t) fullShare ((dats m 0 c).after 0 t) from by
      unfold Dat.leavesExact; rw [live_0 t], after_0]
    rw [show (dats m 0 c).leavesExact 1 t = owns (c : Thread nD τ) (mY t) fullShare ((dats m 0 c).after 1 t) from by
      unfold Dat.leavesExact; rw [live_1 t], after_1]
    rw [show (dats m 0 c).leavesExact 2 t = owns (c : Thread nD τ) (mA t) fullShare ((dats m 0 c).after 2 t) from by
      unfold Dat.leavesExact; rw [live_2 t], after_2]
    rw [show (dats m 0 c).leavesExact 3 t = owns (c : Thread nD τ) (mM t) fullShare ((dats m 0 c).after 3 t) from by
      unfold Dat.leavesExact; rw [live_3 t], after_3]
    rw [show (dats m 0 c).leavesExact 4 t = owns (c : Thread nD τ) (mT t) fullShare ((dats m 0 c).after 4 t) from by
      unfold Dat.leavesExact; rw [idle_4_false t (.inr h7)], after_4]
    rw [show (dats m 0 c).leavesExact 5 t = owns (c : Thread nD τ) (mC t) fullShare ((dats m 0 c).after 5 t) from by
      unfold Dat.leavesExact; rw [idle_5_false t (.inr h7)], after_5]
    rw [totAt_last m c t h7, cntAt_last m c t h7, accAt_step m c t h8]
    simp only [before_4_pos m c t hz, before_5_pos m c t hz]
    iintro ⟨⟨⟨HS0, ⟨%s9, %hs9, HS1⟩⟩, Hg⟩, Ho, ⟨%d0, H0⟩, ⟨%d1, H1⟩, ⟨%d2, H2⟩, ⟨%d3, H3⟩, ⟨%d4, H4⟩, ⟨%d5, H5⟩⟩
    have hsq : sqAfter (grid0.coords t) s9 (yB m c t) (xB m c t) = sqTile m c t :=
      SqOK_full m c t h7 _ (SqOK_store m c t s9 (.inr hs9))
    rw [← hsq]
    iapply (tripleLast c (grid0.coords t) (mX t) (hX t) (mY t) (hY t) (mA t) (hA t) (mM t) (hM t) (mT t) (hT t) (mC t) (hC t) mAcc hAcc mSq hSq
      (fun h => hz ((resetOut_iff t).mp h)) (fun h => h8 ((resetAcc_iff t).mp h)) ((lastSlab_iff t).mpr h7)
      (iblk m c 0 t) (iblk m c 1 t) (iblk m c 2 t) (iblk m c 3 t) _ _ _ s9 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]; · iexact HS0
        iexists _; isplitr; swap; · iexact HS1
        ipureintro; exact SqOK_store m c t s9 (.inr hs9)
      iexact Hg
    isplitl [Ho]; · iexact Ho
    isplitl [H0]; · iexact H0
    isplitl [H1]; · iexact H1
    isplitl [H2]; · iexact H2
    isplitl [H3]; · iexact H3
    isplitl [H4]; · iexact H4
    iexact H5
  -- an inner slab: the accumulator's update; the outputs' windows are idle
  have h7' : ¬t.val % 8 = 7 := by omega
  rw [show (dats m 0 c).leavesExact 0 t = owns (c : Thread nD τ) (mX t) fullShare ((dats m 0 c).after 0 t) from by
    unfold Dat.leavesExact; rw [live_0 t], after_0]
  rw [show (dats m 0 c).leavesExact 1 t = owns (c : Thread nD τ) (mY t) fullShare ((dats m 0 c).after 1 t) from by
    unfold Dat.leavesExact; rw [live_1 t], after_1]
  rw [show (dats m 0 c).leavesExact 2 t = owns (c : Thread nD τ) (mA t) fullShare ((dats m 0 c).after 2 t) from by
    unfold Dat.leavesExact; rw [live_2 t], after_2]
  rw [show (dats m 0 c).leavesExact 3 t = owns (c : Thread nD τ) (mM t) fullShare ((dats m 0 c).after 3 t) from by
    unfold Dat.leavesExact; rw [live_3 t], after_3]
  rw [(dats m 0 c).leavesExact_idle 4 t (idle_4_true t hz h7') (noflush_4 t (by omega))]
  rw [(dats m 0 c).leavesExact_idle 5 t (idle_5_true t hz h7') (noflush_5 t (by omega))]
  rw [accAt_step m c t h8]
  simp only [before_4_pos m c t hz, before_5_pos m c t hz]
  iintro ⟨⟨⟨HS0, ⟨%s9, %hs9, HS1⟩⟩, Hg⟩, Ho, ⟨%d0, H0⟩, ⟨%d1, H1⟩, ⟨%d2, H2⟩, ⟨%d3, H3⟩, ⟨%d4, H4⟩, ⟨%d5, H5⟩⟩
  iapply (tripleMid c (grid0.coords t) (mX t) (hX t) (mY t) (hY t) (mA t) (hA t) (mM t) (hM t) (mT t) (hT t) (mC t) (hC t) mAcc hAcc mSq hSq
    (fun h => hz ((resetOut_iff t).mp h)) (fun h => h8 ((resetAcc_iff t).mp h)) (fun h => h7' ((lastSlab_iff t).mp h))
    (iblk m c 0 t) (iblk m c 1 t) (iblk m c 2 t) (iblk m c 3 t) _ _ _ s9 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]; · iexact HS0
      iexists _; isplitr; swap; · iexact HS1
      ipureintro; exact SqOK_store m c t s9 (.inr hs9)
    iexact Hg
  isplitl [Ho]; · iexact Ho
  isplitl [H0]; · iexact H0
  isplitl [H1]; · iexact H1
  isplitl [H2]; · iexact H2
  isplitl [H3]; · iexact H3
  isplitl [H4]; · iexists d4; iexact H4
  iexists d5; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiAt m c 0 (Nat.zero_le _) from rfl, PhiAt_zero m c 0 _ rfl]

/-- After the last point the invariant gives it back: the scratch buffers' named contents are forgotten. -/
theorem hout (c : Dev nD) : (dats m 0 c).Φ (Fin.last cfg0.N) ⊢ Pipeline.ΦA spec0 c := by
  have hne : (Fin.last cfg0.N).val ≠ 0 := by rw [Fin.val_last]; have : cfg0.N = 64 := N_eq; omega
  rw [show (dats m 0 c).Φ (Fin.last cfg0.N) = PhiAt m c (Fin.last cfg0.N).val (Nat.le_of_lt_succ (Fin.last cfg0.N).isLt) from rfl,
    PhiAt_pos m c _ _ hne, PhiA_eq]
  iintro ⟨⟨HS0, ⟨%d, %hd, HS1⟩⟩, Hg⟩
  isplitl [HS0 HS1]
  · isplitl [HS0]
    · iexists _; iexact HS0
    iexists _; iexact HS1
  iexact Hg

/-- THE RUN: every weakly fair execution of @main terminates, each array of the pipeline ends at what the proof
    data computes for it (an input unchanged, an output at what the body left at its write-back), and every
    other unscoped buffer at what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the kernel's program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KI.Tail.lean ====
/-
  The program's result from the frame run: the two output arrays end at the running values after the last
  grid point (the one write-back, at t = 63, writes the whole 1 × 1 array), and the host lines after the region
  turn them into the loss: the square root of their quotient plus ε.
-/
import proofs.«155107_j85701777424698_1_alg».proof.Proof.KI.Body
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem h63 : 63 < cfg0.N := lt_of_lt_of_eq (by norm_num : 63 < 64) N_eq.symm

/-- The two results after the last point, as contents of their 1 × 1 arrays. -/
abbrev totEnd (c : Dev nD) : Buf (Elt F) ((c : Thread nD τ).loc main_v2_0) := totAt m c 63 h63
abbrev cntEnd (c : Dev nD) : Buf (Elt F) ((c : Thread nD τ).loc main_v2_1) := cntAt m c 63 h63

theorem flush_is_last (t : Fin cfg0.N) (hf : (cfg0.win 4).flush t = true) : t = ⟨63, h63⟩ := by
  have := (flush0_4 t).mp hf; have hN := lt_of_lt_of_eq t.isLt N_eq; exact Fin.ext (by show t.val = 63; omega)
theorem flush_is_last' (t : Fin cfg0.N) (hf : (cfg0.win 5).flush t = true) : t = ⟨63, h63⟩ := by
  have := (flush0_5 t).mp hf; have hN := lt_of_lt_of_eq t.isLt N_eq; exact Fin.ext (by show t.val = 63; omega)

/-- The one write-back of the total writes the running total after the last point: block (0, 0) of a 1 × 1
    array read through zero offsets is the array. -/
theorem flushed_tot (c : Dev nD) (t : Fin cfg0.N) (hf : (cfg0.win 4).flush t = true) :
    (dats m 0 c).flushed 4 t = ((cfg0.win 4).blk t).view.read (Elt F) (totEnd m c) := by
  obtain rfl := flush_is_last t hf
  show (cfg0.win 4).cut (grid0.coords ⟨63, h63⟩) ((dats m 0 c).after 4 ⟨63, h63⟩) = _
  rw [after_4]
  have hz' : (fun a => win0_4.index ⟨63, h63⟩ a * main_v2_0.ty.shape.size a) = fun _ => 0 := funext fun a => by fin_cases a <;> decide +kernel
  exact (Memref.read_access_unit_zero (Elt F) main_v2_0 hz' (fun a => by rw [congrFun hz' a]; simp) (totEnd m c)).symm

theorem flushed_cnt (c : Dev nD) (t : Fin cfg0.N) (hf : (cfg0.win 5).flush t = true) :
    (dats m 0 c).flushed 5 t = ((cfg0.win 5).blk t).view.read (Elt F) (cntEnd m c) := by
  obtain rfl := flush_is_last' t hf
  show (cfg0.win 5).cut (grid0.coords ⟨63, h63⟩) ((dats m 0 c).after 5 ⟨63, h63⟩) = _
  rw [after_5]
  have hz' : (fun a => win0_5.index ⟨63, h63⟩ a * main_v2_1.ty.shape.size a) = fun _ => 0 := funext fun a => by fin_cases a <;> decide +kernel
  exact (Memref.read_access_unit_zero (Elt F) main_v2_1 hz' (fun a => by rw [congrFun hz' a]; simp) (cntEnd m c)).symm

theorem cover_4 (i : S1x1.Idx) : i ∈ ((View.whole main_v2_0).slice (win0_4.rect ⟨63, h63⟩)).set := by
  rw [View.set_slice_whole, Rect.mem_set_unit]
  intro a
  have h0 : (i 0 : Nat) < 1 := (i 0).isLt
  have h1 : (i 1 : Nat) < 1 := (i 1).isLt
  match a with
  | ⟨0, _⟩ =>
    show win0_4.index ⟨63, h63⟩ 0 * win0_4.size 0 ≤ (i 0 : Nat) ∧ (i 0 : Nat) < win0_4.index ⟨63, h63⟩ 0 * win0_4.size 0 + win0_4.xsize (grid0.coords ⟨63, h63⟩) 0
    rw [show win0_4.index ⟨63, h63⟩ 0 * win0_4.size 0 = 0 from by decide +kernel, show win0_4.xsize (grid0.coords ⟨63, h63⟩) 0 = 1 from by decide +kernel]; omega
  | ⟨1, _⟩ =>
    show win0_4.index ⟨63, h63⟩ 1 * win0_4.size 1 ≤ (i 1 : Nat) ∧ (i 1 : Nat) < win0_4.index ⟨63, h63⟩ 1 * win0_4.size 1 + win0_4.xsize (grid0.coords ⟨63, h63⟩) 1
    rw [show win0_4.index ⟨63, h63⟩ 1 * win0_4.size 1 = 0 from by decide +kernel, show win0_4.xsize (grid0.coords ⟨63, h63⟩) 1 = 1 from by decide +kernel]; omega

theorem cover_5 (i : S1x1.Idx) : i ∈ ((View.whole main_v2_1).slice (win0_5.rect ⟨63, h63⟩)).set := by
  rw [View.set_slice_whole, Rect.mem_set_unit]
  intro a
  have h0 : (i 0 : Nat) < 1 := (i 0).isLt
  have h1 : (i 1 : Nat) < 1 := (i 1).isLt
  match a with
  | ⟨0, _⟩ =>
    show win0_5.index ⟨63, h63⟩ 0 * win0_5.size 0 ≤ (i 0 : Nat) ∧ (i 0 : Nat) < win0_5.index ⟨63, h63⟩ 0 * win0_5.size 0 + win0_5.xsize (grid0.coords ⟨63, h63⟩) 0
    rw [show win0_5.index ⟨63, h63⟩ 0 * win0_5.size 0 = 0 from by decide +kernel, show win0_5.xsize (grid0.coords ⟨63, h63⟩) 0 = 1 from by decide +kernel]; omega
  | ⟨1, _⟩ =>
    show win0_5.index ⟨63, h63⟩ 1 * win0_5.size 1 ≤ (i 1 : Nat) ∧ (i 1 : Nat) < win0_5.index ⟨63, h63⟩ 1 * win0_5.size 1 + win0_5.xsize (grid0.coords ⟨63, h63⟩) 1
    rw [show win0_5.index ⟨63, h63⟩ 1 * win0_5.size 1 = 0 from by decide +kernel, show win0_5.xsize (grid0.coords ⟨63, h63⟩) 1 = 1 from by decide +kernel]; omega

/-- So the two output arrays end at the running values after the last point. -/
theorem final_tot (c : Dev nD) : (dats m 0 c).arrAt 4 cfg0.N = totEnd m c :=
  (dats m 0 c).arrAt_eq_of_cover 4 (totEnd m c) (flushed_tot m c) fun i => ⟨⟨63, h63⟩, (flush0_4 ⟨63, h63⟩).mpr rfl, cover_4 i⟩
theorem final_cnt (c : Dev nD) : (dats m 0 c).arrAt 5 cfg0.N = cntEnd m c :=
  (dats m 0 c).arrAt_eq_of_cover 5 (cntEnd m c) (flushed_cnt m c) fun i => ⟨⟨63, h63⟩, (flush0_5 ⟨63, h63⟩).mpr rfl, cover_5 i⟩

/-- The host lines after the region, as one function of the two 1 × 1 results: reshape both to scalars, divide,
    add ε, take the square root. -/
def lossTail (tot cnt : Vec F S1x1 .f32) : Vec F S_ .f32 :=
  Host.sqrt (F := F) (addf (Host.divf (F := F) (shapeCast S_ tot shapeCasts_S1x1_S_) (shapeCast S_ cnt shapeCasts_S1x1_S_))
    (constant (F := F) S_ .f32 0x358637BD#32))

/-- What the program's result buffer holds after the tail. -/
theorem tail_value (c : Dev nD) :
    Pipeline.afterTail₀ cfgs (dats m) 0 (V0 m) [hostOps1] c main_v7 = lossTail (totEnd m c) (cntEnd m c) := by
  unfold Pipeline.afterTail₀
  show StableHlo.after hostOps1 _ (Proc.devRef .tc main_v7) = _
  after_results
  rw [show Pipeline.withArrays spec0 c (V0 m c) (fun w => (dats m 0 c).arrAt w cfg0.N) (Proc.devRef .tc main_v2_0) = totEnd m c from
      (Pipeline.withArrays_arr spec0 launch0.win.arr_inj c _ _ 4).trans (final_tot m c),
    show Pipeline.withArrays spec0 c (V0 m c) (fun w => (dats m 0 c).arrAt w cfg0.N) (Proc.devRef .tc main_v2_1) = cntEnd m c from
      (Pipeline.withArrays_arr spec0 launch0.win.arr_inj c _ _ 5).trans (final_cnt m c)]
  rfl

/-- THE VALUE RUN: the program terminates with its result at the loss of the two running values after the last
    point, and its four arguments unchanged. -/
theorem run_value : θ_run defs (onTc (τ := τ) (main (F := F))) ⟨m, fun _ => 0, ρ⟩ (fun r => ∀ c : Dev nD,
      r.2.mem ((c.tc : Thread nD τ).loc main_v7) = lossTail (totEnd m c) (cntEnd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_v7 (Pipeline.mem_restRefs_of main_v7 (by decide) (by decide))).trans (tail_value m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩) (run_main m ρ)

end Cert.KernelIdeal.Body

end
-- ==== Proof.Math.lean ====
/-
  The loss both programs compute, over the extended reals, as plain sums over the four argument arrays:
  with sq[b,n] = (y[b,n] − ŷ[b,n])², spatial[b,j] = ∑ₙ sq[b,n]·A[j,n] and the 0/1 mask M,
    loss = √( (∑_{b,j} (sq[b,j] + spatial[b,j])·M[b,j]) / (∑_{b,j} M[b,j]) + ε ).
  The kernel walks the 2048 rows in 8 tiles of 256 and the 4096 contracted columns in 8 slabs of 512; the
  sums split accordingly (total_eq_tiles, count_eq_tiles, spatial_eq_slabs): only commutativity and
  associativity of + on the extended reals, no finiteness.
-/
import Idealize.ShloMosaic.PureOps.Ideal
import Mathlib.Algebra.BigOperators.Fin
import Mathlib.Algebra.BigOperators.Intervals

noncomputable section

namespace Cert.Math

open Idealize.ShloMosaic

abbrev Arr (a b : ℕ) : Type := Fin a → Fin b → EReal

/-- The squared difference at (b, n). -/
def sq (Y X : Arr 2048 4096) (b : Fin 2048) (n : Fin 4096) : EReal := (Y b n - X b n) * (Y b n - X b n)

/-- The neighbour term at (b, j): the squares of row b against row j of the neighbour matrix. -/
def spatial (Y X : Arr 2048 4096) (A : Arr 4096 4096) (b : Fin 2048) (j : Fin 4096) : EReal :=
  ∑ n : Fin 4096, sq Y X b n * A j n

/-- The masked total. -/
def total (Y X : Arr 2048 4096) (A : Arr 4096 4096) (M : Arr 2048 4096) : EReal :=
  ∑ b : Fin 2048, ∑ j : Fin 4096, (sq Y X b j + spatial Y X A b j) * M b j

/-- The mask count. -/
def count (M : Arr 2048 4096) : EReal := ∑ b : Fin 2048, ∑ j : Fin 4096, M b j

/-- The loss from the two sums: √(total / count + ε), ε the f32 word of 1e-6. -/
def lossOf (tot cnt : EReal) : EReal := Ideal.sqrt (Ideal.div tot cnt + Ideal.ofBits .f32 0x358637BD#32)

def loss (Y X : Arr 2048 4096) (A : Arr 4096 4096) (M : Arr 2048 4096) : EReal := lossOf (total Y X A M) (count M)

/-- A one-bit mask word as 0 or 1. -/
def mask1 (w : BitVec 1) : EReal := if w = 1#1 then 1 else 0
/-- A 32-bit word as 0 (zero) or 1 (non-zero): the kernel's test of the widened mask. -/
def mask32 (w : BitVec 32) : EReal := if w = 0#32 then 0 else 1

/-- Row r of tile i, and column n of slab k (total functions of naturals, so that sums over ranges need no bounds). -/
def row (i r : ℕ) : Fin 2048 := ⟨(256 * i + r) % 2048, Nat.mod_lt _ (by norm_num)⟩
def col (k n : ℕ) : Fin 4096 := ⟨(512 * k + n) % 4096, Nat.mod_lt _ (by norm_num)⟩

/-- One slab's share of the neighbour term. -/
def slabDot (Y X : Arr 2048 4096) (A : Arr 4096 4096) (b : Fin 2048) (j : Fin 4096) (k : ℕ) : EReal :=
  ∑ n : Fin 512, sq Y X b (col k n) * A j (col k n)

/-- One row tile's share of the masked total and of the count. -/
def tileTot (Y X : Arr 2048 4096) (A : Arr 4096 4096) (M : Arr 2048 4096) (i : ℕ) : EReal :=
  ∑ r : Fin 256, ∑ j : Fin 4096, (sq Y X (row i r) j + spatial Y X A (row i r) j) * M (row i r) j
def tileCnt (M : Arr 2048 4096) (i : ℕ) : EReal := ∑ r : Fin 256, ∑ j : Fin 4096, M (row i r) j

/-- A sum over `Fin N` with `N = a * b` is the sum over the `a` blocks of the sums over the `b` places in each block:
    the pairs (block, place) are in bijection with the flat positions `b * block + place`, all of which lie below `N`,
    and a sum over pairs is an iterated sum. -/
theorem sum_blocks {M : Type*} [AddCommMonoid M] (a b N : ℕ) (hN : a * b = N) (hpos : 0 < N) (f : Fin N → M) :
    ∑ x, f x = ∑ i ∈ Finset.range a, ∑ r : Fin b, f ⟨(b * i + r.val) % N, Nat.mod_lt _ hpos⟩ := by
  subst hN
  rw [← Fin.sum_univ_eq_sum_range (fun i => ∑ r : Fin b, f ⟨(b * i + r.val) % (a * b), Nat.mod_lt _ hpos⟩) a]
  rw [← Fintype.sum_prod_type' (f := fun (i : Fin a) (r : Fin b) => f ⟨(b * i.val + r.val) % (a * b), Nat.mod_lt _ hpos⟩)]
  refine (Fintype.sum_equiv finProdFinEquiv _ f (fun p => congrArg f (Fin.ext ?_))).symm
  have hlt : b * p.1.val + p.2.val < a * b :=
    calc b * p.1.val + p.2.val < b * p.1.val + b := Nat.add_lt_add_left p.2.isLt _
      _ = b * (p.1.val + 1) := (Nat.mul_succ _ _).symm
      _ ≤ b * a := Nat.mul_le_mul_left b p.1.isLt
      _ = a * b := Nat.mul_comm _ _
  simp only [finProdFinEquiv_apply_val, Nat.mod_eq_of_lt hlt]
  exact Nat.add_comm _ _

theorem spatial_eq_slabs (Y X : Arr 2048 4096) (A : Arr 4096 4096) (b : Fin 2048) (j : Fin 4096) :
    spatial Y X A b j = ∑ k ∈ Finset.range 8, slabDot Y X A b j k :=
  sum_blocks 8 512 4096 (by norm_num) (by norm_num) (fun n => sq Y X b n * A j n)

theorem total_eq_tiles (Y X : Arr 2048 4096) (A : Arr 4096 4096) (M : Arr 2048 4096) :
    total Y X A M = ∑ i ∈ Finset.range 8, tileTot Y X A M i :=
  sum_blocks 8 256 2048 (by norm_num) (by norm_num)
    (fun b => ∑ j : Fin 4096, (sq Y X b j + spatial Y X A b j) * M b j)

theorem count_eq_tiles (M : Arr 2048 4096) : count M = ∑ i ∈ Finset.range 8, tileCnt M i :=
  sum_blocks 8 256 2048 (by norm_num) (by norm_num) (fun b => ∑ j : Fin 4096, M b j)

end Cert.Math

end
-- ==== Proof.LibLeadSumDotT.lean ====
/-
  Two readings at an index, over the extended reals, for kernels that sum a grouped operand over its LEADING axis and
  multiply a row block against the ROWS of a weight block (`x @ W.T`):

  * `sumLead3_apply` / `sumLead2_apply`: a `vector.multi_reduction <add>` over axis 0 of a rank-3 (rank-2) vector,
    read at `(r, k)` (at `q`), is the sum over `g` of the entries `(g, r, k)` (`(g, q)`);
  * `matmulT_apply`: a `tpu.matmul` into the zero accumulator whose dimension numbers contract axis 1 of BOTH operands
    (`DotDims.transposedRhs M K N`: lhs [M, K], rhs [N, K], out [M, N]), read at `(p, q)`, is
    `Σ k : Fin K, lhs (p, k) * rhs (q, k)`. A printed record `dot_S<M>x<K>_S<N>x<K>_S<M>x<N>_1_1_0_0_n_n` unifies with
    `DotDims.transposedRhs M K N` by unfolding, so the lemma applies to the printed payload by `exact` / `refine … .trans`.
-/
import Idealize.ShloMosaic.PureOps.Ideal.Laws
import Idealize.ShloMosaic.Lib.ValueIdx

noncomputable section

namespace Cert.Lib

open Idealize.ShloMosaic Idealize.ShloMosaic.ValueIdx

/-- The sum over the leading axis of a rank-3 vector, read at `(r, k)`: the sum over `g` of the entries `(g, r, k)`. -/
theorem sumLead3_apply {n0 n1 n2 : Nat} (src : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = FKind.add.neutral .f32 hφ) (r : Fin n1) (k : Fin n2) :
    multiReduction .add [0] ⟨2, ![n1, n2]⟩ src 0x00000000#32 h hφ hacc (ix2 r k) = ∑ g : Fin n0, src (ix3 g r k) := by
  refine (Ideal.multiReduction_add_single src _ h hφ hacc (ix2 r k)).trans ?_
  refine Finset.sum_congr rfl fun g _ => congrArg src ?_
  funext a
  match a with
  | ⟨0, _⟩ => rfl
  | ⟨1, _⟩ => rfl
  | ⟨2, _⟩ => rfl

/-- The sum over the leading axis of a rank-2 vector, read at `q`: the sum over `g` of the entries `(g, q)`. -/
theorem sumLead2_apply {n0 n1 : Nat} (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (q : Fin n1) :
    multiReduction .add [0] ⟨1, ![n1]⟩ src 0x00000000#32 h hφ hacc (ix1 q) = ∑ g : Fin n0, src (ix2 g q) := by
  refine (Ideal.multiReduction_add_single src _ h hφ hacc (ix1 q)).trans ?_
  refine Finset.sum_congr rfl fun g _ => congrArg src ?_
  funext a
  match a with
  | ⟨0, _⟩ => rfl
  | ⟨1, _⟩ => rfl

/-! ## A product that contracts the second axis of both operands -/

/-- The left operand's row coordinate is the output's row. -/
theorem lhsT_0 {M K N : Nat} (j : (⟨2, ![M, N]⟩ : Shape).Idx) (k : (DotDims.transposedRhs M K N).contr.Idx) :
    ((DotDims.transposedRhs M K N).lhsIdx j k 0).val = (j 0).val := rfl
/-- The left operand's column coordinate is the contraction coordinate. -/
theorem lhsT_1 {M K N : Nat} (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k
/-- The right operand's row coordinate is the output's column. -/
theorem rhsT_0 {M K N : Nat} (j : (⟨2, ![M, N]⟩ : Shape).Idx) (k : (DotDims.transposedRhs M K N).contr.Idx) :
    ((DotDims.transposedRhs M K N).rhsIdx j k 0).val = (j 1).val := rfl
/-- The right operand's column coordinate is the contraction coordinate. -/
theorem rhsT_1 {M K N : Nat} (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- Into the zero accumulator, such a product read at `(p, q)` is the sum over `k` of `lhs (p, k) * rhs (q, k)`. -/
theorem matmulT_apply {M K N : Nat} {φ₁ φ₂ : FTy} (lhs : FVec Ideal ⟨2, ![M, K]⟩ φ₁) (rhs : FVec Ideal ⟨2, ![N, K]⟩ φ₂)
    (p : Fin M) (q : Fin N) :
    matmul (DotDims.transposedRhs M K N) none lhs rhs (constant (F := Ideal) ⟨2, ![M, N]⟩ .f32 0x00000000#32) (ix2 p q)
      = ∑ k : Fin K, lhs (ix2 p k) * rhs (ix2 q k) := by
  refine (Ideal.matmul_constant_zero_apply (DotDims.transposedRhs M K N) none lhs rhs (ix2 p q)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have hl : (DotDims.transposedRhs M K N).lhsIdx (ix2 p q) ((contrEquiv1 (DotDims.transposedRhs M K N) K rfl rfl).symm k) = ix2 p k := by
    funext a
    match a with
    | ⟨0, _⟩ => exact Fin.ext (lhsT_0 _ _)
    | ⟨1, _⟩ => exact Fin.ext ((lhsT_1 _ _).trans hk)
  have hr : (DotDims.transposedRhs M K N).rhsIdx (ix2 p q) ((contrEquiv1 (DotDims.transposedRhs M K N) K rfl rfl).symm k) = ix2 q k := by
    funext a
    match a with
    | ⟨0, _⟩ => exact Fin.ext (rhsT_0 _ _)
    | ⟨1, _⟩ => exact Fin.ext ((rhsT_1 _ _).trans hk)
  rw [hl, hr]

end Cert.Lib

end
-- ==== Proof.LibRowReduce.lean ====
/- Reductions along the rows of a matrix, read at a row, over the extended reals: a `vector.multi_reduction` over
   axis 1 of an `[a, b]` vector at row `p` is the sum (`sumRow_apply`), or the fold of `max` from the accumulator
   (`maxRow_apply`), of the entries `(p, k)` over the column `k`; and the host's one-operand `stablehlo.reduce` with a
   maximum body over axis 1 is the same fold from its initial value (`hostMaxRow_apply`). -/
import Idealize.ShloMosaic.PureOps.Ideal.Laws
import Idealize.ShloMosaic.Lib.ValueIdx

noncomputable section

namespace Idealize.ShloMosaic.RowReduce

open Idealize.ShloMosaic Idealize.ShloMosaic.ValueIdx

/-- The sum over the columns of an `[a, b]` vector, read at row `p`: the sum over `k` of the entries `(p, k)`. -/
theorem sumRow_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext c
  match c with
  | ⟨0, _⟩ => rfl
  | ⟨1, _⟩ => rfl

/-- The maximum over the columns of an `[a, b]` vector, read at row `p`: the fold of `max`, from the accumulator's
    value, of the entries `(p, k)` over `k`. -/
theorem maxRow_apply {a b : Nat} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (fun f => Finset.fold max (Ideal.ofBits .f32 acc) f (Finset.univ : Finset (Fin b)))
    (funext fun k => congrArg src (funext fun c => by
      match c with
      | ⟨0, _⟩ => rfl
      | ⟨1, _⟩ => rfl))

/-- The host's reduce with a maximum body over the columns, read at row `p`: the same fold, from the initial value. -/
theorem hostMaxRow_apply {a b : Nat} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  refine (Host.reduce_eq_fold_single FloatOps.maximumf x init h' h hu (ix1 p)).trans ?_
  exact congrArg (fun f => Finset.fold max (init (Shape.Idx.first hu)) f (Finset.univ : Finset (Fin b)))
    (funext fun k => congrArg x (funext fun c => by
      match c with
      | ⟨0, _⟩ => rfl
      | ⟨1, _⟩ => rfl))

end Idealize.ShloMosaic.RowReduce

end
-- ==== Proof.LibKeepdims.lean ====
/- A vector viewed as a one-column array, and a sum over a rank-1 index set: the two index facts a row reduction kept as a
   column (`sum(axis=1, keepdims=True)`) meets. -/
import Idealize.ShloMosaic.Lib.Pipeline.Value
import Idealize.ShloMosaic.Lib.ValueIdx

open Idealize.ShloMosaic Idealize.ShloMosaic.ValueIdx
open scoped BigOperators

namespace Idealize.ShloMosaic.Keepdims

/-- A length-`a` vector viewed as an [a, 1] column reads, at (p, q), the vector at p: both have row-major position p. -/
theorem shapeCast_a_a1_apply {α : Type} {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- An [a, 1] column viewed as a length-`a` vector reads, at p, the column at (p, 0). -/
theorem shapeCast_a1_a_apply {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A sum over a rank-1 index set is the sum over its coordinate. -/
theorem sum_idx1 {M : Type*} [AddCommMonoid M] {n : ℕ} (f : (⟨1, ![n]⟩ : Shape).Idx → M) : ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

end Idealize.ShloMosaic.Keepdims
-- ==== Proof.KI.PayRead.lean ====
/-
  The body's payload terms read at an index, at the ideal instance: each as the textbook expression over
  the extended reals of the values it was computed from.
-/
import proofs.«155107_j85701777424698_1_alg».proof.Proof.Gen.KernelIdeal.Skeleton
import proofs.«155107_j85701777424698_1_alg».proof.Proof.Math
import proofs.«155107_j85701777424698_1_alg».proof.Proof.LibLeadSumDotT
import proofs.«155107_j85701777424698_1_alg».proof.Proof.LibRowReduce
import proofs.«155107_j85701777424698_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayRead

open Cert.KernelIdeal Cert.KernelIdeal.Gen Cert.Math
open Idealize.ShloMosaic Idealize.ShloMosaic.ValueIdx

/-- The reset payloads are zero. -/
theorem pay1_apply (j : S1x1.Idx) : k0_pay1 (F := Ideal) j = 0 := by
  unfold k0_pay1
  exact Ideal.ofBits_zero_f32
theorem pay2_apply (j : S1x1.Idx) : k0_pay2 (F := Ideal) j = 0 := by
  unfold k0_pay2
  exact Ideal.ofBits_zero_f32
theorem pay3_apply (j : S256x4096.Idx) : k0_pay3 (F := Ideal) j = 0 := by
  unfold k0_pay3
  rw [shapeCast_self]
  exact Ideal.ofBits_zero_f32

/-- The slab of squares at (r, q): the squared difference of the two blocks there. -/
theorem pay5_apply (y x : Vec Ideal S256x512 .f32) (r : Fin 256) (q : Fin 512) :
    k0_pay5 y x (ix2 r q) = (y (ix2 r q) - x (ix2 r q)) * (y (ix2 r q) - x (ix2 r q)) := by
  unfold k0_pay5 k0_pay4
  dsimp only
  rw [shapeCast_self]
  rfl

/-- The accumulator's update at (r, j): what it held plus the slab's squares of row r against row j of the
    neighbour slab. -/
theorem pay6_apply (y x : Vec Ideal S256x512 .f32) (a : Vec Ideal S4096x512 .bf16) (p : Vec Ideal S256x4096 .f32)
    (r : Fin 256) (j : Fin 4096) :
    k0_pay6 y x a p (ix2 r j) = p (ix2 r j) + ∑ n : Fin 512, k0_pay5 y x (ix2 r n) * a (ix2 j n) := by
  unfold k0_pay6
  rw [shapeCast_self, shapeCast_self, addf_apply]
  refine congrArg (fun t => p (ix2 r j) + t) ?_
  refine (Cert.Lib.matmulT_apply (truncf .bf16 (k0_pay4 y x) bitsLt_bf16_f32) a r j).trans ?_
  refine Finset.sum_congr rfl fun n _ => ?_
  unfold k0_pay5
  rw [shapeCast_self, truncf_apply]

/-- The float of the widened one-bit test "w ≠ 0" is 1 where w is non-zero, else 0. -/
theorem sitofp_ne_zero (w : BitVec 32) :
    (((((IntOp.cmpi .ne w 0#32).setWidth 32).toInt : ℝ) : EReal)) = mask32 w := by
  unfold mask32
  by_cases h : w = 0#32
  · rw [if_pos h, h]
    have e : ((IntOp.cmpi .ne (0#32) 0#32).setWidth 32).toInt = 0 := by decide
    rw [e]; simp
  · rw [if_neg h]
    have hb : (w != 0#32) = true := bne_iff_ne.mpr h
    have e1 : IntOp.cmpi .ne w 0#32 = 1#1 := by
      show BitVec.ofBool (w != 0#32) = 1#1
      rw [hb]; rfl
    rw [e1]
    have e : ((1#1 : BitVec 1).setWidth 32).toInt = 1 := by decide
    rw [e]; simp

/-- The kernel's float mask at (r, j): 1 where the widened mask word is non-zero, else 0. -/
theorem pay7_apply (K : Vec Ideal S256x4096 .i32) (r : Fin 256) (j : Fin 4096) :
    k0_pay7 (F := Ideal) K (ix2 r j) = mask32 (K (ix2 r j)) := by
  unfold k0_pay7
  exact sitofp_ne_zero (K (ix2 r j))

/-- The masked total's update: what the output held plus the tile's masked sum. -/
theorem pay8_apply (S A : Vec Ideal S256x4096 .f32) (K : Vec Ideal S256x4096 .i32) (o : Vec Ideal S1x1 .f32) :
    k0_pay8 S A K o (ix2 (0 : Fin 1) (0 : Fin 1))
      = o (ix2 (0 : Fin 1) (0 : Fin 1)) + ∑ r : Fin 256, ∑ j : Fin 4096, (S (ix2 r j) + A (ix2 r j)) * mask32 (K (ix2 r j)) := by
  unfold k0_pay8
  rw [addf_apply, shapeCast_self o]
  refine congrArg (fun t => o (ix2 (0 : Fin 1) (0 : Fin 1)) + t) ?_
  refine (Keepdims.shapeCast_a_a1_apply _ _ (0 : Fin 1) (0 : Fin 1)).trans ?_
  refine (Cert.Lib.sumLead2_apply _ _ _ _ (0 : Fin 1)).trans ?_
  refine Finset.sum_congr rfl fun r _ => ?_
  refine (Keepdims.shapeCast_a_a1_apply _ _ r (0 : Fin 1)).trans ?_
  refine (RowReduce.sumRow_apply _ _ _ _ r).trans ?_
  refine Finset.sum_congr rfl fun j _ => ?_
  rw [mulf_apply, addf_apply, pay7_apply]

/-- The mask count's update: what the output held plus the tile's count. -/
theorem pay9_apply (K : Vec Ideal S256x4096 .i32) (o : Vec Ideal S1x1 .f32) :
    k0_pay9 (F := Ideal) K o (ix2 (0 : Fin 1) (0 : Fin 1))
      = o (ix2 (0 : Fin 1) (0 : Fin 1)) + ∑ r : Fin 256, ∑ j : Fin 4096, mask32 (K (ix2 r j)) := by
  unfold k0_pay9
  rw [addf_apply, shapeCast_self o]
  refine congrArg (fun t => o (ix2 (0 : Fin 1) (0 : Fin 1)) + t) ?_
  refine (Keepdims.shapeCast_a_a1_apply _ _ (0 : Fin 1) (0 : Fin 1)).trans ?_
  refine (Cert.Lib.sumLead2_apply _ _ _ _ (0 : Fin 1)).trans ?_
  refine Finset.sum_congr rfl fun r _ => ?_
  refine (Keepdims.shapeCast_a_a1_apply _ _ r (0 : Fin 1)).trans ?_
  refine (RowReduce.sumRow_apply _ _ _ _ r).trans ?_
  refine Finset.sum_congr rfl fun j _ => ?_
  exact pay7_apply K r j

end Cert.KernelIdeal.PayRead

end
-- ==== Proof.KI.ValueK.lean ====
/-
  The kernel's two results at the ideal instance as plain sums over the arrays the region finds: after the
  last grid point the masked total's staging buffer holds the masked total, the count's the mask count.
  Through the blocks read at an index (a block's entry is the array's at 256·i + r, 512·k + q), the
  accumulator as the sum of the slabs' products so far, the squares scratch as the tile's squares, and an
  induction over the grid points that adds one tile's share at every k = 7.
-/
import proofs.«155107_j85701777424698_1_alg».proof.Proof.KI.Spec
import proofs.«155107_j85701777424698_1_alg».proof.Proof.KI.PayRead
import proofs.«155107_j85701777424698_1_alg».proof.Proof.Math
import Idealize.ShloMosaic.Lib.ValueIdx
import Idealize.ShloMosaic.Lib.Pipeline.Value

set_option maxRecDepth 16384

noncomputable section

namespace Cert.KernelIdeal.ValueK

open Cert.KernelIdeal Cert.KernelIdeal.Gen Cert.KernelIdeal.Body Cert.KernelIdeal.PayRead Cert.Math
open Idealize.ShloMosaic Idealize.ShloMosaic.TcCoe Idealize.SL.Sem Idealize.ShloMosaic.ValueIdx

variable (m : (ℓ : Loc nD τ sig) → Buf (Elt Ideal) ℓ) (c : Dev nD)

/-- The four arrays as the region finds them, by coordinates: y, ŷ, the neighbour matrix (after the host's
    change of format, the identity here) and the 0/1 mask (of the host's widened mask words). -/
def Yk : Arr 2048 4096 := fun b n => (V m c main_arg1 : Vec Ideal S2048x4096 .f32) (ix2 b n)
def Xk : Arr 2048 4096 := fun b n => (V m c main_arg0 : Vec Ideal S2048x4096 .f32) (ix2 b n)
def Ak : Arr 4096 4096 := fun j n => (V m c main_v0 : Vec Ideal S4096x4096 .bf16) (ix2 j n)
def Mk : Arr 2048 4096 := fun b j => mask32 ((V m c main_v1 : Vec Ideal S2048x4096 .i32) (ix2 b j))

theorem h63 : 63 < cfg0.N := lt_of_lt_of_eq (by norm_num : 63 < 64) N_eq.symm

/-- The block index of each window at the linear point t = 8·i + k: (i, k), (i, k), (0, k), (i, 0). -/
theorem idx0 : ∀ t : Fin cfg0.N, win0_0.index t 0 = t.val / 8 ∧ win0_0.index t 1 = t.val % 8 :=
  (by decide +kernel : ∀ t : Fin grid0.N, _)
theorem idx1 : ∀ t : Fin cfg0.N, win0_1.index t 0 = t.val / 8 ∧ win0_1.index t 1 = t.val % 8 :=
  (by decide +kernel : ∀ t : Fin grid0.N, _)
theorem idx2 : ∀ t : Fin cfg0.N, win0_2.index t 0 = 0 ∧ win0_2.index t 1 = t.val % 8 :=
  (by decide +kernel : ∀ t : Fin grid0.N, _)
theorem idx3 : ∀ t : Fin cfg0.N, win0_3.index t 0 = t.val / 8 ∧ win0_3.index t 1 = 0 :=
  (by decide +kernel : ∀ t : Fin grid0.N, _)

/-- The y block's entry (r, q) at point t is y at (256·i + r, 512·k + q). -/
theorem yB_read (t : Fin cfg0.N) (r : Fin 256) (q : Fin 512) :
    yB m c t (ix2 r q) = Yk m c (row (t.val / 8) r.val) (col (t.val % 8) q.val) := by
  have hN : t.val < 64 := lt_of_lt_of_eq t.isLt N_eq
  unfold Yk
  show iblk m c 1 t (ix2 r q) = _
  unfold iblk
  rw [View.read_apply]
  show V m c main_arg1 _ = V m c main_arg1 _
  congr 1
  funext a
  apply Fin.ext
  match a with
  | ⟨0, _⟩ =>
    show win0_1.index t 0 * 256 + 1 * r.val = (256 * (t.val / 8) + r.val) % 2048
    rw [(idx1 t).1]; omega
  | ⟨1, _⟩ =>
    show win0_1.index t 1 * 512 + 1 * q.val = (512 * (t.val % 8) + q.val) % 4096
    rw [(idx1 t).2]; omega

/-- The ŷ block's entry likewise. -/
theorem xB_read (t : Fin cfg0.N) (r : Fin 256) (q : Fin 512) :
    xB m c t (ix2 r q) = Xk m c (row (t.val / 8) r.val) (col (t.val % 8) q.val) := by
  have hN : t.val < 64 := lt_of_lt_of_eq t.isLt N_eq
  unfold Xk
  show iblk m c 0 t (ix2 r q) = _
  unfold iblk
  rw [View.read_apply]
  show V m c main_arg0 _ = V m c main_arg0 _
  congr 1
  funext a
  apply Fin.ext
  match a with
  | ⟨0, _⟩ =>
    show win0_0.index t 0 * 256 + 1 * r.val = (256 * (t.val / 8) + r.val) % 2048
    rw [(idx0 t).1]; omega
  | ⟨1, _⟩ =>
    show win0_0.index t 1 * 512 + 1 * q.val = (512 * (t.val % 8) + q.val) % 4096
    rw [(idx0 t).2]; omega

/-- The neighbour slab's entry (j, q) at point t is the matrix at (j, 512·k + q). -/
theorem aB_read (t : Fin cfg0.N) (j : Fin 4096) (q : Fin 512) :
    aB m c t (ix2 j q) = Ak m c j (col (t.val % 8) q.val) := by
  have hN : t.val < 64 := lt_of_lt_of_eq t.isLt N_eq
  unfold Ak
  show iblk m c 2 t (ix2 j q) = _
  unfold iblk
  rw [View.read_apply]
  show V m c main_v0 _ = V m c main_v0 _
  congr 1
  funext a
  apply Fin.ext
  match a with
  | ⟨0, _⟩ =>
    show win0_2.index t 0 * 4096 + 1 * j.val = j.val
    rw [(idx2 t).1]; omega
  | ⟨1, _⟩ =>
    show win0_2.index t 1 * 512 + 1 * q.val = (512 * (t.val % 8) + q.val) % 4096
    rw [(idx2 t).2]; omega

/-- The mask tile's entry (r, j) at point t is the mask word at (256·i + r, j). -/
theorem kB_read (t : Fin cfg0.N) (r : Fin 256) (j : Fin 4096) :
    kB m c t (ix2 r j) = (V m c main_v1 : Vec Ideal S2048x4096 .i32) (ix2 (row (t.val / 8) r.val) j) := by
  have hN : t.val < 64 := lt_of_lt_of_eq t.isLt N_eq
  show iblk m c 3 t (ix2 r j) = _
  unfold iblk
  rw [View.read_apply]
  show V m c main_v1 _ = V m c main_v1 _
  congr 1
  funext a
  apply Fin.ext
  match a with
  | ⟨0, _⟩ =>
    show win0_3.index t 0 * 256 + 1 * r.val = (256 * (t.val / 8) + r.val) % 2048
    rw [(idx3 t).1]; omega
  | ⟨1, _⟩ =>
    show win0_3.index t 1 * 4096 + 1 * j.val = j.val
    rw [(idx3 t).2]; omega

/-- One point's product term at (r, j): the slab's share of the neighbour term. -/
theorem slab_term (t : Fin cfg0.N) (r : Fin 256) (j : Fin 4096) :
    ∑ n : Fin 512, k0_pay5 (yB m c t) (xB m c t) (ix2 r n) * aB m c t (ix2 j n)
      = slabDot (Yk m c) (Xk m c) (Ak m c) (row (t.val / 8) r.val) j (t.val % 8) := by
  unfold slabDot
  refine Finset.sum_congr rfl fun n _ => ?_
  rw [pay5_apply, yB_read, xB_read, aB_read]
  rfl

/-- The accumulator after point n at (r, j): the sum of the tile's slab shares so far. -/
theorem accAt_eq : ∀ (n : ℕ) (h : n < cfg0.N) (r : Fin 256) (j : Fin 4096),
    accAt (F := Ideal) m c n h (ix2 r j)
      = ∑ k ∈ Finset.range (n % 8 + 1), slabDot (Yk m c) (Xk m c) (Ak m c) (row (n / 8) r.val) j k := by
  intro n
  induction n with
  | zero =>
    intro h r j
    refine (congrFun (accAt_reset (F := Ideal) m c ⟨0, h⟩ rfl) (ix2 r j)).trans ?_
    rw [pay6_apply, pay3_apply, zero_add, slab_term]
    exact (Finset.sum_range_one _).symm
  | succ n ih =>
    intro h r j
    by_cases h0 : (n + 1) % 8 = 0
    · refine (congrFun (accAt_reset (F := Ideal) m c ⟨n + 1, h⟩ h0) (ix2 r j)).trans ?_
      rw [pay6_apply, pay3_apply, zero_add, slab_term]
      show slabDot _ _ _ (row ((n + 1) / 8) r.val) j ((n + 1) % 8) = _
      rw [h0, Finset.sum_range_one]
    · refine (congrFun (accAt_step (F := Ideal) m c ⟨n + 1, h⟩ h0) (ix2 r j)).trans ?_
      rw [pay6_apply, slab_term]
      show accAt (F := Ideal) m c n _ (ix2 r j) + slabDot _ _ _ (row ((n + 1) / 8) r.val) j ((n + 1) % 8) = _
      rw [ih]
      have e1 : (n + 1) / 8 = n / 8 := by omega
      have e2 : (n + 1) % 8 = n % 8 + 1 := by omega
      rw [e1, e2]
      exact (Finset.sum_range_succ _ _).symm

/-- The squares scratch at (r, q): the squared difference at row 256·i + r, column q. -/
theorem sqTile_read (t : Fin cfg0.N) (r : Fin 256) (q : Fin 4096) :
    sqTile (F := Ideal) m c t (ix2 r q) = sq (Yk m c) (Xk m c) (row (t.val / 8) r.val) q := by
  have hN : t.val < 64 := lt_of_lt_of_eq t.isLt N_eq
  have hq : q.val < 4096 := q.isLt
  unfold sqTile
  show k0_pay5 (yB m c ⟨8 * (t.val / 8) + q.val / 512, _⟩) (xB m c ⟨8 * (t.val / 8) + q.val / 512, _⟩)
      (ix2 (⟨r.val, _⟩ : Fin 256) (⟨q.val % 512, _⟩ : Fin 512)) = _
  rw [pay5_apply, yB_read, xB_read]
  have hrow : row ((8 * (t.val / 8) + q.val / 512) / 8) r.val = row (t.val / 8) r.val := by
    congr 1; omega
  have hcol : col ((8 * (t.val / 8) + q.val / 512) % 8) (q.val % 512) = q := by
    apply Fin.ext
    show (512 * ((8 * (t.val / 8) + q.val / 512) % 8) + q.val % 512) % 4096 = q.val
    omega
  show (Yk m c (row ((8 * (t.val / 8) + q.val / 512) / 8) r.val) (col ((8 * (t.val / 8) + q.val / 512) % 8) (q.val % 512))
      - Xk m c (row ((8 * (t.val / 8) + q.val / 512) / 8) r.val) (col ((8 * (t.val / 8) + q.val / 512) % 8) (q.val % 512)))
    * (Yk m c (row ((8 * (t.val / 8) + q.val / 512) / 8) r.val) (col ((8 * (t.val / 8) + q.val / 512) % 8) (q.val % 512))
      - Xk m c (row ((8 * (t.val / 8) + q.val / 512) / 8) r.val) (col ((8 * (t.val / 8) + q.val / 512) % 8) (q.val % 512))) = _
  rw [hrow, hcol]
  rfl

/-- The last slab's point of a tile adds the tile's share of the masked total. -/
theorem tile_share (t : Fin cfg0.N) (h7 : t.val % 8 = 7) :
    ∑ r : Fin 256, ∑ j : Fin 4096,
        (sqTile (F := Ideal) m c t (ix2 r j) + accAt (F := Ideal) m c t.val t.isLt (ix2 r j)) * mask32 (kB m c t (ix2 r j))
      = tileTot (Yk m c) (Xk m c) (Ak m c) (Mk m c) (t.val / 8) := by
  unfold tileTot
  refine Finset.sum_congr rfl fun r _ => Finset.sum_congr rfl fun j _ => ?_
  rw [sqTile_read, accAt_eq, kB_read, h7, spatial_eq_slabs]
  rfl

/-- And of the mask count. -/
theorem tile_count (t : Fin cfg0.N) :
    ∑ r : Fin 256, ∑ j : Fin 4096, mask32 (kB m c t (ix2 r j)) = tileCnt (Mk m c) (t.val / 8) := by
  unfold tileCnt
  refine Finset.sum_congr rfl fun r _ => Finset.sum_congr rfl fun j _ => ?_
  rw [kB_read]
  rfl

/-- The total's buffer after point n: the shares of the tiles finished so far. -/
theorem totAt_eq : ∀ (n : ℕ) (h : n < cfg0.N),
    totAt (F := Ideal) m c n h (ix2 (0 : Fin 1) (0 : Fin 1))
      = ∑ i ∈ Finset.range ((n + 1) / 8), tileTot (Yk m c) (Xk m c) (Ak m c) (Mk m c) i := by
  intro n
  induction n with
  | zero =>
    intro h
    refine (congrFun (totAt_zero (F := Ideal) m c ⟨0, h⟩ rfl) _).trans ?_
    rw [pay1_apply]
    rfl
  | succ n ih =>
    intro h
    by_cases h7 : (n + 1) % 8 = 7
    · refine (congrFun (totAt_last (F := Ideal) m c ⟨n + 1, h⟩ h7) _).trans ?_
      rw [pay8_apply, tile_share m c ⟨n + 1, h⟩ h7]
      show totAt (F := Ideal) m c n _ (ix2 (0 : Fin 1) (0 : Fin 1)) + tileTot _ _ _ _ ((n + 1) / 8) = _
      rw [ih]
      have e : (n + 1 + 1) / 8 = (n + 1) / 8 + 1 := by omega
      rw [e]
      exact (Finset.sum_range_succ _ _).symm
    · refine (congrFun (totAt_keep (F := Ideal) m c ⟨n + 1, h⟩ (Nat.succ_ne_zero n) h7) _).trans ?_
      show totAt (F := Ideal) m c n _ (ix2 (0 : Fin 1) (0 : Fin 1)) = _
      rw [ih]
      have e : (n + 1 + 1) / 8 = (n + 1) / 8 := by omega
      rw [e]

/-- The count's buffer after point n likewise. -/
theorem cntAt_eq : ∀ (n : ℕ) (h : n < cfg0.N),
    cntAt (F := Ideal) m c n h (ix2 (0 : Fin 1) (0 : Fin 1))
      = ∑ i ∈ Finset.range ((n + 1) / 8), tileCnt (Mk m c) i := by
  intro n
  induction n with
  | zero =>
    intro h
    refine (congrFun (cntAt_zero (F := Ideal) m c ⟨0, h⟩ rfl) _).trans ?_
    rw [pay2_apply]
    rfl
  | succ n ih =>
    intro h
    by_cases h7 : (n + 1) % 8 = 7
    · refine (congrFun (cntAt_last (F := Ideal) m c ⟨n + 1, h⟩ h7) _).trans ?_
      rw [pay9_apply, tile_count m c ⟨n + 1, h⟩]
      show cntAt (F := Ideal) m c n _ (ix2 (0 : Fin 1) (0 : Fin 1)) + tileCnt _ ((n + 1) / 8) = _
      rw [ih]
      have e : (n + 1 + 1) / 8 = (n + 1) / 8 + 1 := by omega
      rw [e]
      exact (Finset.sum_range_succ _ _).symm
    · refine (congrFun (cntAt_keep (F := Ideal) m c ⟨n + 1, h⟩ (Nat.succ_ne_zero n) h7) _).trans ?_
      show cntAt (F := Ideal) m c n _ (ix2 (0 : Fin 1) (0 : Fin 1)) = _
      rw [ih]
      have e : (n + 1 + 1) / 8 = (n + 1) / 8 := by omega
      rw [e]

/-- After the last point the total's buffer holds the masked total of the arrays. -/
theorem K_tot : totAt (F := Ideal) m c 63 h63 (ix2 (0 : Fin 1) (0 : Fin 1)) = total (Yk m c) (Xk m c) (Ak m c) (Mk m c) := by
  rw [totAt_eq, total_eq_tiles]

/-- After the last point the count's buffer holds the mask count. -/
theorem K_cnt : cntAt (F := Ideal) m c 63 h63 (ix2 (0 : Fin 1) (0 : Fin 1)) = count (Mk m c) := by
  rw [cntAt_eq, count_eq_tiles]

end Cert.KernelIdeal.ValueK

end
-- ==== Proof.KI.Final.lean ====
/-
  The kernel's result at the ideal instance is the loss of its four arguments: the two running values after the
  last point are the masked total and the mask count of the arrays the region finds (the kernel-side value
  module), those arrays are the arguments themselves — y and ŷ untouched, the neighbour matrix through a change
  of format that is the identity on the extended reals, the mask through a widening that keeps zero and
  non-zero —, and the host tail is the square root of the quotient plus ε.
-/
import proofs.«155107_j85701777424698_1_alg».proof.Proof.KI.Tail
import proofs.«155107_j85701777424698_1_alg».proof.Proof.KI.ValueK
import proofs.«155107_j85701777424698_1_alg».proof.Proof.Math
import Idealize.ShloMosaic.Lib.ValueIdx
import Idealize.ShloMosaic.Lib.Pipeline.Value
import Idealize.ShloMosaic.Lib.StableHlo.Run

set_option maxRecDepth 16384

noncomputable section

namespace Cert.KernelIdeal.Final

open Cert.KernelIdeal Cert.KernelIdeal.Gen Cert.KernelIdeal.Body Cert.KernelIdeal.ValueK Cert.Math
open Idealize.ShloMosaic Idealize.ShloMosaic.TcCoe Idealize.SL.Sem Idealize.ShloMosaic.ValueIdx

variable (m : (ℓ : Loc nD τ sig) → Buf (Elt Ideal) ℓ) (c : Dev nD)

/-- The neighbour matrix as the region finds it: the argument through the host's change of format. -/
theorem V_v0 : (V m c main_v0 : S4096x4096.Idx → EReal) = fun j => (m ((c : Thread nD τ).loc main_arg3) : S4096x4096.Idx → EReal) j := by
  show StableHlo.after hostOps0 (fun b => m (c, b)) (Proc.devRef .tc main_v0) = _
  after_results
  rfl

/-- The mask as the region finds it: the argument's bits widened to 32-bit words. -/
theorem V_v1 : (V m c main_v1 : S2048x4096.Idx → BitVec 32)
    = fun j => (Scalar.extui ((m ((c : Thread nD τ).loc main_arg2) : S2048x4096.Idx → BitVec 1) j) : BitVec 32) := by
  show StableHlo.after hostOps0 (fun b => m (c, b)) (Proc.devRef .tc main_v1) = _
  after_results
  rfl

/-- A widened mask bit is non-zero exactly when the bit is set. -/
theorem mask32_extui (w : BitVec 1) : mask32 (Scalar.extui w : BitVec 32) = mask1 w := by
  have hw : w = 0#1 ∨ w = 1#1 := by
    have : w.toNat < 2 := w.isLt
    rcases Nat.lt_succ_iff_lt_or_eq.mp this with h | h
    · left; apply BitVec.eq_of_toNat_eq; simp at h ⊢; omega
    · right; apply BitVec.eq_of_toNat_eq; simpa using h
  have h0 : (Scalar.extui (0#1) : BitVec 32) = 0#32 := by decide
  have h1 : ¬(Scalar.extui (1#1) : BitVec 32) = 0#32 := by decide
  rcases hw with rfl | rfl
  · rw [mask32, if_pos h0, mask1, if_neg (by decide)]
  · rw [mask32, if_neg h1, mask1, if_pos rfl]

theorem Yk_eq : Yk m c = fun b n => m ((c : Thread nD τ).loc main_arg1) (ix2 b n) := by
  funext b n; unfold Yk; rw [V_main_arg1]
theorem Xk_eq : Xk m c = fun b n => m ((c : Thread nD τ).loc main_arg0) (ix2 b n) := by
  funext b n; unfold Xk; rw [V_main_arg0]
theorem Ak_eq : Ak m c = fun j n => m ((c : Thread nD τ).loc main_arg3) (ix2 j n) := by
  funext j n; unfold Ak; exact congrFun (V_v0 m c) (ix2 j n)
theorem Mk_eq : Mk m c = fun b j => mask1 (m ((c : Thread nD τ).loc main_arg2) (ix2 b j)) := by
  funext b j; unfold Mk; rw [show (V m c main_v1 : Vec Ideal S2048x4096 .i32) (ix2 b j) = _ from congrFun (V_v1 m c) (ix2 b j)]; exact mask32_extui _

/-- The host tail at the ideal instance: the loss of the two 1 × 1 results' single entries. -/
theorem lossTail_apply (tot cnt : Vec Ideal S1x1 .f32) (i : S_.Idx) :
    lossTail (F := Ideal) tot cnt i = lossOf (tot (ix2 (0 : Fin 1) (0 : Fin 1))) (cnt (ix2 (0 : Fin 1) (0 : Fin 1))) := by
  have e : ∀ (x : Vec Ideal S1x1 .f32), shapeCast S_ x shapeCasts_S1x1_S_ i = x (ix2 (0 : Fin 1) (0 : Fin 1)) := fun x => by
    refine shapeCast_apply x shapeCasts_S1x1_S_ i (ix2 (0 : Fin 1) (0 : Fin 1)) ?_
    have h1 := (S1x1.rowMajor (ix2 (0 : Fin 1) (0 : Fin 1))).isLt
    have h2 := (S_.rowMajor i).isLt
    have n1 : S1x1.numel = 1 := by decide
    have n2 : S_.numel = 1 := by decide
    omega
  unfold lossTail lossOf
  simp only [Host.sqrt, Host.divf, addf, constant, e, Ideal.hostUnary_sqrt_def, Ideal.hostDivf_def, Ideal.addf_def, Ideal.ofBits_def]

/-- THE KERNEL'S VALUE: the loss of its arguments. -/
theorem kernel_value (i : S_.Idx) :
    lossTail (totEnd m c) (cntEnd m c) i
      = loss (fun b n => m ((c : Thread nD τ).loc main_arg1) (ix2 b n)) (fun b n => m ((c : Thread nD τ).loc main_arg0) (ix2 b n))
          (fun j n => m ((c : Thread nD τ).loc main_arg3) (ix2 j n)) (fun b j => mask1 (m ((c : Thread nD τ).loc main_arg2) (ix2 b j))) := by
  rw [lossTail_apply]
  unfold loss
  rw [← Yk_eq m c, ← Xk_eq m c, ← Ak_eq m c, ← Mk_eq m c, ← K_tot m c, ← K_cnt m c]

end Cert.KernelIdeal.Final

end
-- ==== Proof.RefSide.lean ====
/-
  The reference's result at the ideal instance, read one operation at a time: the loss as plain sums over
  the four argument arrays by coordinates.
-/
import proofs.«155107_j85701777424698_1_alg».proof.Proof.Gen.ReferenceIdeal.Run
import proofs.«155107_j85701777424698_1_alg».proof.Proof.Gen.ReferenceIdeal.Read
import proofs.«155107_j85701777424698_1_alg».proof.Proof.Math
import Idealize.ShloMosaic.Lib.ValueIdx

noncomputable section

namespace Cert.ReferenceIdeal.RefValue

open Cert.ReferenceIdeal Cert.ReferenceIdeal.Gen Cert.ReferenceIdeal.Read Cert.Math
open Idealize.ShloMosaic Idealize.ShloMosaic.ValueIdx

/-- A one-bit word is the zero word or the one word. -/
theorem bv1_cases (w : BitVec 1) : w = 0#1 ∨ w = 1#1 := by
  have h := w.isLt
  rcases (by omega : w.toNat = 0 ∨ w.toNat = 1) with h0 | h1
  · exact Or.inl (BitVec.eq_of_toNat_eq (by simpa using h0))
  · exact Or.inr (BitVec.eq_of_toNat_eq (by simpa using h1))

/-- A one-bit word read unsigned as an extended real is the 0/1 mask. -/
theorem uitofp_mask1 (w : BitVec 1) : FloatOps.uitofp (F := Ideal) .f32 w = mask1 w := by
  show (((w.toNat : ℝ)) : EReal) = mask1 w
  rcases bv1_cases w with rfl | rfl
  · simp [mask1]
  · simp [mask1]

/-- The left operand's index of the contraction at output (b, j), column k, is (b, k). -/
theorem lidx_ix2 (b : Fin 2048) (j k : Fin 4096) : lidx_main_v2 (ix2 b j) k = ix2 b k :=
  funext fun a => Fin.ext (by match a with | ⟨0, _⟩ => rfl | ⟨1, _⟩ => rfl)

/-- The right operand's index of the contraction at output (b, j), column k, is (j, k). -/
theorem ridx_ix2 (b : Fin 2048) (j k : Fin 4096) : ridx_main_v2 (ix2 b j) k = ix2 j k :=
  funext fun a => Fin.ext (by match a with | ⟨0, _⟩ => rfl | ⟨1, _⟩ => rfl)

/-- The reference's result is the loss of its four arguments. -/
theorem ref_value (x0 x1 : (⟨S2048x4096, .f32⟩ : BufTy).Contents (Elt Ideal)) (x2 : (⟨S2048x4096, .i1⟩ : BufTy).Contents (Elt Ideal))
    (x3 : (⟨S4096x4096, .f32⟩ : BufTy).Contents (Elt Ideal)) (i : S_.Idx) :
    val_main_v10 (F := Ideal) x0 x1 x2 x3 i
      = loss (fun b n => x1 (ix2 b n)) (fun b n => x0 (ix2 b n)) (fun j n => x3 (ix2 j n)) (fun b j => mask1 (x2 (ix2 b j))) := by
  rw [val_main_v10_apply, val_main_v9_apply, val_main_cst_1_apply, val_main_v8_apply, val_main_v7_apply,
    val_main_v5_apply, val_main_cst_0_apply, val_main_cst_apply]
  simp only [val_main_v6_apply, val_main_v4_apply, val_main_v3_apply, val_main_v2_apply, val_main_v1_apply,
    val_main_v0_apply]
  simp only [Ideal.hostUnary_sqrt_def, Ideal.hostDivf_def, Ideal.addf_def, Ideal.subf_def, Ideal.mulf_def,
    Ideal.ofBits_def, Ideal.ofBits_zero_f32, zero_add, uitofp_mask1]
  rw [sum_idx2, sum_idx2]
  simp only [lidx_ix2, ridx_ix2]
  simp only [loss, lossOf, total, Math.count, spatial, Math.sq]

end Cert.ReferenceIdeal.RefValue

end
-- ==== Proof.lean ====
/-
  The certificate of a masked root-mean-square loss with a neighbour term, computed tile by tile.

  With sq[b,n] = (y[b,n] − ŷ[b,n])², spatial[b,j] = ∑ₙ sq[b,n]·A[j,n] and the 0/1 mask M, both programs compute
      √( (∑_{b,j} (sq[b,j] + spatial[b,j])·M[b,j]) / (∑_{b,j} M[b,j]) + ε ).
  The reference does so with one matrix product and two whole-array sums. The kernel walks an 8 × 8 grid of
  256-row tiles and 512-column slabs: at every point it stores the slab's squares into a full-width scratch and
  adds the slab's product into an accumulator (reset at the first slab of a tile); at the last slab of a tile it
  adds the tile's masked sum of (squares + accumulator) and the tile's mask count into two 1 × 1 outputs (reset
  at the first point); the host divides, adds ε and takes the square root.

  Over the extended reals the two agree by commutativity and associativity of + alone (a sum over 4096 columns
  is the sum of its 8 slabs, a sum over 2048 rows the sum of its 8 tiles, 0 + x = x): the inputs' finiteness is
  not used. The frames of the two kernel programs are one text, generic in the float instance: the body's four
  runs (by the point's branch pattern), the proof data naming every buffer after every point, and the pipeline's
  launch. The reference's frame is its run with the result dropped; the ideal pass rewrote nothing.
-/
import proofs.«155107_j85701777424698_1_alg».proof.Defs
import proofs.«155107_j85701777424698_1_alg».proof.Proof.Gen.Kernel
import proofs.«155107_j85701777424698_1_alg».proof.Proof.Gen.KernelIdeal
import proofs.«155107_j85701777424698_1_alg».proof.Proof.Gen.ReferenceIdeal
import proofs.«155107_j85701777424698_1_alg».proof.Proof.Gen.Pre_finite_inputs
import proofs.«155107_j85701777424698_1_alg».proof.Proof.Gen.ReferenceIdeal.Run
import proofs.«155107_j85701777424698_1_alg».proof.Proof.Gen.ReferenceIdeal.Read
import proofs.«155107_j85701777424698_1_alg».proof.Proof.K.Body
import proofs.«155107_j85701777424698_1_alg».proof.Proof.KI.Body
import proofs.«155107_j85701777424698_1_alg».proof.Proof.KI.Tail
import proofs.«155107_j85701777424698_1_alg».proof.Proof.KI.Final
import proofs.«155107_j85701777424698_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories agreeing on the four arguments, both end at the loss of those
    arguments: the kernel by its value run (the running total and count after the last point, through the host
    tail), the reference by its run read one operation at a time. -/
theorem algebraic : Cert.algebraic_KernelIdeal_ReferenceIdeal := by
  intro m ρ m' ρ' _ hagree
  refine ⟨fun c => Cert.KernelIdeal.Body.lossTail (Cert.KernelIdeal.Body.totEnd m c) (Cert.KernelIdeal.Body.cntEnd m c),
    Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq]
  funext i
  rw [Cert.ReferenceIdeal.RefValue.ref_value, (hagree c).1, (hagree c).2.1, (hagree c).2.2.1, (hagree c).2.2.2]
  exact (Cert.KernelIdeal.Final.kernel_value m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
